-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S52224 : Shape := ⟨1, ![52224]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S52224 : S_.BroadcastsInDim S52224 (![] : Fin 0 → Fin S52224.rank)
  reducesTo_S52224_S_d0 : S52224.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg3 : IVec S52224 32) (main_arg4 : IVec S52224 32) (main_v13 : IVec S_ 1) (main_v15 : IVec S52224 1) (main_c_5 : IVec S_ 1) : IVec S_ 1 :=
  let main_v16 : IVec S_ 1 := (fun x v => Host.reduce IntOp.andi x v reducesTo_S52224_S_d0 h_S_) main_v15 main_c_5
  let main_v17 : IVec S_ 1 := andi main_v13 main_v16
  let main_c_6 : IVec S_ 32 := constantI S_ 32 1024#32
  let main_v18 : IVec S52224 32 := broadcastInDim S52224 ![] bcast_S_S52224 main_c_6
  let main_v19 : IVec S52224 1 := cmpi .slt main_arg3 main_v18
  let main_c_7 : IVec S_ 1 := constantI S_ 1 1#1
  let main_v20 : IVec S_ 1 := (fun x v => Host.reduce IntOp.andi x v reducesTo_S52224_S_d0 h_S_) main_v19 main_c_7
  let main_v21 : IVec S_ 1 := andi main_v17 main_v20
  let main_c_8 : IVec S_ 32 := constantI S_ 32 0#32
  let main_v22 : IVec S52224 32 := broadcastInDim S52224 ![] bcast_S_S52224 main_c_8
  let main_v23 : IVec S52224 1 := cmpi .sge main_arg4 main_v22
  let main_c_9 : IVec S_ 1 := constantI S_ 1 1#1
  let main_v24 : IVec S_ 1 := (fun x v => Host.reduce IntOp.andi x v reducesTo_S52224_S_d0 h_S_) main_v23 main_c_9
  let main_v25 : IVec S_ 1 := andi main_v21 main_v24
  let main_c_10 : IVec S_ 32 := constantI S_ 32 1024#32
  let main_v26 : IVec S52224 32 := broadcastInDim S52224 ![] bcast_S_S52224 main_c_10
  let main_v27 : IVec S52224 1 := cmpi .slt main_arg4 main_v26
  let main_c_11 : IVec S_ 1 := constantI S_ 1 1#1
  let main_v28 : IVec S_ 1 := (fun x v => Host.reduce IntOp.andi x v reducesTo_S52224_S_d0 h_S_) main_v27 main_c_11
  let main_v29 : IVec S_ 1 := andi main_v25 main_v28
  main_v29

def fn {F : FTy → Type} [FloatOps F] (main_arg0 : FVec F S4096x1024 .f32) (main_arg1 : FVec F S52224 .f32) (main_arg2 : FVec F S1024 .f32) (main_arg3 : IVec S52224 32) (main_arg4 : IVec S52224 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S52224 .f32 := Host.absf main_arg1
  let main_cst_0 : FVec F S_ .f32 := constant S_ .f32 0x7F800000#32
  let main_v5 : FVec F S52224 .f32 := broadcastInDim S52224 ![] bcast_S_S52224 main_cst_0
  let main_v6 : IVec S52224 1 := cmpf .olt main_v4 main_v5
  let main_c_1 : IVec S_ 1 := constantI S_ 1 1#1
  let main_v7 : IVec S_ 1 := (fun x v => Host.reduce IntOp.andi x v reducesTo_S52224_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_c_4 : IVec S_ 32 := constantI S_ 32 0#32
  let main_v14 : IVec S52224 32 := broadcastInDim S52224 ![] bcast_S_S52224 main_c_4
  let main_v15 : IVec S52224 1 := cmpi .sge main_arg3 main_v14
  let main_c_5 : IVec S_ 1 := constantI S_ 1 1#1
  fn_part1 (F := F) main_arg3 main_arg4 main_v13 main_v15 main_c_5
-- ==== Kernel.lean ====
abbrev S4096x1024 : Shape := ⟨2, ![4096, 1024]⟩
abbrev S52224 : Shape := ⟨1, ![52224]⟩
abbrev S1024 : Shape := ⟨1, ![1024]⟩
abbrev S1x52224 : Shape := ⟨2, ![1, 52224]⟩
abbrev S52224x1 : Shape := ⟨2, ![52224, 1]⟩
abbrev S1024x1024 : Shape := ⟨2, ![1024, 1024]⟩
abbrev S1x1024 : Shape := ⟨2, ![1, 1024]⟩
abbrev S1024x1 : Shape := ⟨2, ![1024, 1]⟩
abbrev S1024x512 : Shape := ⟨2, ![1024, 512]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S52224, .f32⟩
  | .hbm, ⟨2, _⟩ => ⟨S1024, .f32⟩
  | .hbm, ⟨3, _⟩ => ⟨S52224, .i32⟩
  | .hbm, ⟨4, _⟩ => ⟨S52224, .i32⟩
  | .hbm, ⟨5, _⟩ => ⟨S1x52224, .i32⟩
  | .hbm, ⟨6, _⟩ => ⟨S1x52224, .f32⟩
  | .hbm, ⟨7, _⟩ => ⟨S52224x1, .i32⟩
  | .hbm, ⟨8, _⟩ => ⟨S1024x1024, .bf16⟩
  | .hbm, ⟨9, _⟩ => ⟨S4096x1024, .f32⟩
  | .local _ .vmem, ⟨0, _⟩ => ⟨S1x1024, .i32⟩
  | .local _ .vmem, ⟨1, _⟩ => ⟨S1x1024, .i32⟩
  | .local _ .vmem, ⟨2, _⟩ => ⟨S1024x1, .i32⟩
  | .local _ .vmem, ⟨3, _⟩ => ⟨S1024x1, .i32⟩
  | .local _ .vmem, ⟨4, _⟩ => ⟨S1x1024, .f32⟩
  | .local _ .vmem, ⟨5, _⟩ => ⟨S1x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024, .f32⟩
  | .local _ .vmem, ⟨13, _⟩ => ⟨S1024x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 51], ![false, false]⟩

def k0_cond2 (i : grid0.Coords) : BitVec 1 :=
  let arg1 : BitVec 32 := BitVec.ofNat 32 (i 1).val
  let c50_i32 : BitVec 32 := 50#32
  let v33 : BitVec 1 := Scalar.cmpi .eq arg1 c50_i32
  let v34 : BitVec 32 := Scalar.extui v33
  let c0_i32_10 : BitVec 32 := 0#32
  let v35 : BitVec 1 := Scalar.cmpi .ne v34 c0_i32_10
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S52224_S1x52224 : S52224.ShapeCasts S1x52224
  shapeCasts_S52224_S52224x1 : S52224.ShapeCasts S52224x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1024x1024_d0_w32 : S1024x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  natLt_1_32 : 1 < 32
  bitsLt_bf16_f32 : FTy.bits .bf16 < FTy.bits .f32
  iota_S1024x512_d1_w32 : S1024x512.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  dot_S1024x1024_S1024x512_S1024x512_1_0_0_1_n_n_wf : DotDims.WF S1024x1024 S1024x512 S1024x512 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x52224.size a
  hwx0_0 : ∀ i : grid0.Coords, EltTy.bits .i32 = 32 ∨ (Rect.block (s := S1x52224) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S52224x1.size a
  hwx0_1 : ∀ i : grid0.Coords, EltTy.bits .i32 = 32 ∨ (Rect.block (s := S52224x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x52224.size a
  hwx0_2 : ∀ i : grid0.Coords, EltTy.bits .f32 = 32 ∨ (Rect.block (s := S1x52224) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x1024.size a
  hwx0_3 : ∀ i : grid0.Coords, EltTy.bits .bf16 = 32 ∨ (Rect.block (s := S1024x1024) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S52224 : Shape := ⟨1, ![52224]⟩
abbrev S1024 : Shape := ⟨1, ![1024]⟩
abbrev S_ : Shape := ⟨0, ![]⟩
abbrev S52224x1 : Shape := ⟨2, ![52224, 1]⟩
abbrev S4096x52224 : Shape := ⟨2, ![4096, 52224]⟩
abbrev S1x52224 : Shape := ⟨2, ![1, 52224]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S52224, .f32⟩
  | .hbm, ⟨2, _⟩ => ⟨S1024, .f32⟩
  | .hbm, ⟨3, _⟩ => ⟨S52224, .i32⟩
  | .hbm, ⟨4, _⟩ => ⟨S52224, .i32⟩
  | .hbm, ⟨5, _⟩ => ⟨S_, .i32⟩
  | .hbm, ⟨6, _⟩ => ⟨S52224, .i32⟩
  | .hbm, ⟨7, _⟩ => ⟨S52224, .i1⟩
  | .hbm, ⟨8, _⟩ => ⟨S_, .i32⟩
  | .hbm, ⟨9, _⟩ => ⟨S52224, .i32⟩
  | .hbm, ⟨10, _⟩ => ⟨S52224, .i32⟩
  | .hbm, ⟨11, _⟩ => ⟨S52224, .i32⟩
  | .hbm, ⟨12, _⟩ => ⟨S52224x1, .i32⟩
  | .hbm, ⟨13, _⟩ => ⟨S4096x52224, .f32⟩
  | .hbm, ⟨14, _⟩ => ⟨S1x52224, .f32⟩
  | .hbm, ⟨15, _⟩ => ⟨S4096x52224, .f32⟩
  | .hbm, ⟨16, _⟩ => ⟨S4096x52224, .f32⟩
  | .hbm, ⟨17, _⟩ => ⟨S_, .f32⟩
  | .hbm, ⟨18, _⟩ => ⟨S4096x1024, .f32⟩
  | .hbm, ⟨19, _⟩ => ⟨S_, .i32⟩
  | .hbm, ⟨20, _⟩ => ⟨S52224, .i32⟩
  | .hbm, ⟨21, _⟩ => ⟨S52224, .i1⟩
  | .hbm, ⟨22, _⟩ => ⟨S_, .i32⟩
  | .hbm, ⟨23, _⟩ => ⟨S52224, .i32⟩
  | .hbm, ⟨24, _⟩ => ⟨S52224, .i32⟩
  | .hbm, ⟨25, _⟩ => ⟨S52224, .i32⟩
  | .hbm, ⟨26, _⟩ => ⟨S52224x1, .i32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S52224 : S_.BroadcastsInDim S52224 (![] : Fin 0 → Fin S52224.rank)
  bcast_S52224_S52224x1_0 : S52224.BroadcastsInDim S52224x1 (![0] : Fin 1 → Fin S52224x1.rank)
  bcast_S52224_S1x52224_1 : S52224.BroadcastsInDim S1x52224 (![1] : Fin 1 → Fin S1x52224.rank)
  bcast_S1x52224_S4096x52224_0_1 : S1x52224.BroadcastsInDim S4096x52224 (![0, 1] : Fin 2 → Fin S4096x52224.rank)
  bcast_S_S4096x1024 : S_.BroadcastsInDim S4096x1024 (![] : Fin 0 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  gather_S4096x1024_S52224x1_S4096x52224_0_1_n_n_1_1_40961_wf : GatherDims.WF S4096x1024 S52224x1 S4096x52224 [0] [1] [] [1] [] 1 ![4096, 1]
  scatter_S4096x1024_S52224x1_S4096x52224_0_1_1_1_wf : ScatterDims.WF S4096x1024 S52224x1 S4096x52224 [0] [1] [1] 1

variable [Facts₀]

def gather_S4096x1024_S52224x1_S4096x52224_0_1_n_n_1_1_40961 : GatherDims S4096x1024 S52224x1 S4096x52224 where
  offsetDims := [0]
  collapsedSliceDims := [1]
  operandBatchingDims := []
  startIndicesBatchingDims := []
  startIndexMap := [1]
  indexVectorDim := 1
  sliceSizes := ![4096, 1]
  wf := gather_S4096x1024_S52224x1_S4096x52224_0_1_n_n_1_1_40961_wf
def scatter_S4096x1024_S52224x1_S4096x52224_0_1_1_1 : ScatterDims S4096x1024 S52224x1 S4096x52224 where
  updateWindowDims := [0]
  insertedWindowDims := [1]
  scatterDimsToOperandDims := [1]
  indexVectorDim := 1
  wf := scatter_S4096x1024_S52224x1_S4096x52224_0_1_1_1_wf

class Facts : Prop extends Facts₀ where

variable [Facts]
-- ==== Proof.FrameKernel.Shared0.lean ====
/-
  Region 0 (the densify call, grid 2 × 51): what its three cases' runs are stated over. A point t = 51·h + r
  (h the column half, r the tile of 1024 nonzeros): the accumulator is zeroed where r = 0, the tile's
  contribution is added at every point, and the accumulator is cast and stored into the output block where r = 50.
-/
import proofs.«402548_j23965917512071_3_alg».proof.Proof.Gen.Kernel.Launch
import proofs.«402548_j23965917512071_3_alg».proof.Proof.Gen.Kernel.Skeleton
import proofs.«402548_j23965917512071_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first tile" (r = 0): the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 51 = 0 :=
  (by decide +kernel : ∀ t : Fin grid0.N, cond0_0 (grid0.coords t) ↔ t.val % 51 = 0)

/-- "This is the last tile" (r = 50): the accumulator is stored into the output block. -/
abbrev cond0_1 (i : grid0.Coords) : Prop := k0_cond2 i = 1#1
theorem hcond0_1 : ∀ t : Fin cfg0.N, cond0_1 (grid0.coords t) ↔ t.val % 51 = 50 :=
  (by decide +kernel : ∀ t : Fin grid0.N, cond0_1 (grid0.coords t) ↔ t.val % 51 = 50)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

abbrev VO0_3 : View sig .tc .vmem S1024x512 .bf16 := (Memref.whole cc0_stg3_0 : Memref sig .tc .vmem S1024x512 .bf16).view
abbrev ms0_0 (t : Fin cfg0.N) : Memref sig .tc .vmem S1x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x512 .f32 := Memref.whole cc0_scratch0
abbrev VS0_0 : View sig .tc .vmem S1024x512 .f32 := scM0_0.view

/-- The core's other scoped buffers that region 0 does not stage through (the second call's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.Kernel.Hand

end
-- ==== Proof.FrameKernel.Run0A.lean ====
/-
  Region 0's body at a first tile (r = 0): the accumulator, whatever it held, is zeroed and the tile's contribution
  added to it; the output block is not touched.
-/
import proofs.«402548_j23965917512071_3_alg».proof.Proof.FrameKernel.Shared0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- The pieces the body leaves in the accumulator at a first tile, with the body's triple on whole staging memrefs:
    the three inputs' blocks kept, the output block handed back untouched. -/
noncomputable def kernelRun0_A (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__densify_kernel i arg2 harg2 arg3 harg3 arg4 harg4 arg5 harg5 arg6 harg6) K } := by
  refine ⟨[], ?_, fun xi3 E K => ?run⟩
  case run =>
    simp only [cc0__densify_kernel_eq_skeleton]; unfold cc0__densify_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrameKernel.Run0B.lean ====
/-
  Region 0's body at a middle tile (0 < r < 50): the tile's contribution is added to what the tile before left in the
  accumulator; the output block is not touched.
-/
import proofs.«402548_j23965917512071_3_alg».proof.Proof.FrameKernel.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun0_B (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__densify_kernel i arg2 harg2 arg3 harg3 arg4 harg4 arg5 harg5 arg6 harg6) K } := by
  refine ⟨[], ?_, fun xi3 E K => ?run⟩
  case run =>
    simp only [cc0__densify_kernel_eq_skeleton]; unfold cc0__densify_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrameKernel.Run0C.lean ====
/-
  Region 0's body at a last tile (r = 50): the tile's contribution is added to what the tile before left in the
  accumulator, and the accumulator, cast to the output's format, is stored over the whole output block.
-/
import proofs.«402548_j23965917512071_3_alg».proof.Proof.FrameKernel.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun0_C (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__densify_kernel i arg2 harg2 arg3 harg3 arg4 harg4 arg5 harg5 arg6 harg6) K } := by
  refine ⟨?_, ?_, fun E K => ?run⟩
  case run =>
    simp only [cc0__densify_kernel_eq_skeleton]; unfold cc0__densify_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.FrameKernel.Frame0.lean ====
/-
  Region 0's frame half at the entry contents V: what the accumulator and the output block hold after each grid point
  (by recursion on the point: zeroed and one tile added where r = 0, one more tile added elsewhere, the cast accumulator
  stored into the block where r = 50), the pipeline's proof data over it, and the body obligation at every point.
-/
import proofs.«402548_j23965917512071_3_alg».proof.Proof.FrameKernel.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What case A leaves in the output block's staging buffer: nothing is stored (a placeholder nothing consults: the block is neither written back nor read there). -/
def out0_A_3 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) : Vec F S1024x512 .bf16 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) (y : S1024x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x512.size (by sl_kernel_rfl) y

/-- What case A leaves in the accumulator: its stores read back. -/
def sout0_A_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) : Vec F S1024x512 .f32 :=
  VS0_0.read (Elt F) (VS0_0.writes (Elt F) VS0_0.junk (kernelRun0_A c i arg2 harg2 arg3 harg3 arg4 harg4 arg5 harg5 arg6 harg6 hc0 hc1 x0 x1 x2).2.1)

/-- What case B leaves in the output block's staging buffer: nothing is stored (a placeholder nothing consults: the block is neither written back nor read there). -/
def out0_B_3 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) : Vec F S1024x512 .bf16 :=
  VO0_3.read (Elt F) (VO0_3.writes (Elt F) VO0_3.junk (kernelRun0_B c i arg2 harg2 arg3 harg3 arg4 harg4 arg5 harg5 arg6 harg6 hc0 hc1 x0 x1 x2 xs0).1)

/-- Case B's stores into the accumulator cover it. -/
theorem scover0_B_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) (y : S1024x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x512.size (by sl_kernel_rfl) y

/-- What case B leaves in the accumulator: its stores read back. -/
def sout0_B_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) : Vec F S1024x512 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What case C leaves in the output block's staging buffer: its one store read back. -/
def out0_C_3 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) : Vec F S1024x512 .bf16 :=
  VO0_3.read (Elt F) (VO0_3.writes (Elt F) VO0_3.junk (kernelRun0_C c i arg2 harg2 arg3 harg3 arg4 harg4 arg5 harg5 arg6 harg6 hc0 hc1 x0 x1 x2 xs0).1)

/-- Case C's store covers the output block. -/
theorem cover0_C_3 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) (y : S1024x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x512.size (by sl_kernel_rfl) y

/-- Case C's stores into the accumulator cover it. -/
theorem scover0_C_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) (y : S1024x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x512.size (by sl_kernel_rfl) y

/-- What case C leaves in the accumulator: its stores read back. -/
def sout0_C_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) : Vec F S1024x512 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block's buffer and the accumulator hold after each point -/

/-- After the body at position `n`: (the output block's staging buffer, the accumulator). The case is the one the
    closed forms select at `n`; cases B and C run over what the point before left in the accumulator. -/
def outsAt0 (c : Dev nD) : (n : ℕ) → n < cfg0.N → Vec F S1024x512 .bf16 × Vec F S1024x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 51 = 0 then
      if h1 : (n + 1) % 51 = 50 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 51 = 50 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 51 = 0) (h1 : ¬t.val % 51 = 50) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 51 = 0) (h1 : ¬t.val % 51 = 50) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 51 = 0) (h1 : t.val % 51 = 50) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The proof data of region 0 on core `c`: the arrays as the region finds them; after the body at point `t` each
    input's buffer at its block and the output block's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem owed0 (c : Dev nD) (t) : (dat0 V c).owed t = 0 := rfl
theorem q0 (c : Dev nD) (w) : (dat0 V c).q w = fullShare := rfl
theorem recorded0 (c : Dev nD) (t) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' memrefs hold their blocks; the closed forms say which case the point is in;
    the invariant hands the body the accumulator at what the point before left (at anything at the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 102 := lt_of_lt_of_eq t.isLt (show cfg0.N = 102 from N_0)
  by_cases h0 : t.val % 51 = 0
  · by_cases h1 : t.val % 51 = 50
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 51 = 50
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: what the accumulator holds is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ (Pipeline.ΦA spec0 c : sProp 𝕄) :=
  Phi_out0 V c _ (by rw [Fin.val_last]; have : cfg0.N = 102 := N_0; omega)

end Cert.Kernel.Hand

end
-- ==== Proof.FrameKernel.Frame1.lean ====
/-
  Region 1 (the product-plus-bias call, grid of 4 row blocks), at the contents V the region is entered from: its body loads
  its three input blocks whole and stores one value over the whole output block, at every point; the proof data over that and
  the body obligation at every point.
-/
import proofs.«402548_j23965917512071_3_alg».proof.Proof.Gen.Kernel.Launch
import proofs.«402548_j23965917512071_3_alg».proof.Proof.Gen.Kernel.Skeleton
import proofs.«402548_j23965917512071_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the matmul-plus-bias call, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a row block of the left operand, fetched at every point): its current staging buffer holds its
    block at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole right operand, fetched at the first point only): the block index never moves, so the
    buffer holds the block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole bias vector, fetched at the first point only): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole rectangle of a 1024 × 1024 buffer. -/
abbrev r1_0 : Rect S1024x1024 := Rect.unit (s := S1024x1024) ![0, 0] S1024x1024.size inb_S1024x1024_S1024x1024_0_0
/-- The whole rectangle of a 1024 buffer. -/
abbrev r1_1 : Rect S1024 := Rect.unit (s := S1024) ![0] S1024.size inb_S1024_S1024_0

/-! ## What the body leaves in the output window's buffer -/

/-- Window 3's staging buffer after the body, from the input windows' blocks: its one store as a piece. -/
def out1_3 (x0 : Vec F S1024x1024 .f32) (x1 : Vec F S1024x1024 .bf16) (x2 : Vec F S1024 .f32) : Vec F S1024x1024 .f32 :=
  View.canon [⟨r1_0, k1_pay1 (View.ld x0 r1_0) (View.ld x1 r1_0) (View.ld x2 r1_1)⟩]

/-- The one store is over the whole rectangle, so it covers the buffer. -/
theorem cover1_3 (p0 : Vec F S1024x1024 .f32) (y : S1024x1024.Idx) :
    ∃ pc ∈ ([⟨r1_0, p0⟩] : List (View.Piece (Elt F) S1024x1024 .f32)), y ∈ pc.1.set :=
  View.cover_of_tiled [⟨r1_0, p0⟩] S1024x1024.size (by rfl) y

/-! ## The body's triple -/

set_option maxHeartbeats 1000000 in
/-- The kernel body on whole staging memrefs, the three inputs' at read contents `x0 x1 x2` and the output's at
    anything, runs to the continuation holding the inputs' as they were and the output's at `out1_3` of the inputs':
    three whole loads, a load of the output buffer whose value is not used, and one store over the whole output. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .f32) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__matmul_bias_kernel i arg1 harg1 arg2 harg2 arg3 harg3 arg4 harg4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of region 1 on core `c`: the arrays as the region finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- Nothing is owed at any point. -/
theorem owed1 (c : Dev nD) (t) : (dat1 V c).owed t = 0 := by dsimp only [dat1]
/-- Every window is held at the full share. -/
theorem q1 (c : Dev nD) (w) : (dat1 V c).q w = fullShare := by dsimp only [dat1]
/-- Every pair of cells counts as recorded (the default). -/
theorem recorded1 (c : Dev nD) (t) : (dat1 V c).recorded t = Set.univ := rfl
/-- The invariant is the same at every point. -/
theorem Phi1 (c : Dev nD) (t) : (dat1 V c).Φ t = Pipeline.ΦA spec1 c := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameKernel.Run.lean ====
/-
  The whole program as three segments — the host stretch of three reshapes, the densify region, the product region — and the
  buffer contents at each boundary: after the reshapes, after region 0 (its output array at what its write-backs leave,
  everything else kept), after region 1 likewise. Every execution ends with each unscoped buffer at the last boundary's
  contents; the arguments are written by no segment, and the result array holds what region 1's write-backs leave.
-/
import proofs.«402548_j23965917512071_3_alg».proof.Proof.FrameKernel.Frame0
import proofs.«402548_j23965917512071_3_alg».proof.Proof.FrameKernel.Frame1
import proofs.«402548_j23965917512071_3_alg».proof.Proof.Gen.Kernel.Launch
import proofs.«402548_j23965917512071_3_alg».proof.Proof.Gen.Kernel.Skeleton
import proofs.«402548_j23965917512071_3_alg».proof.Proof.Gen.Kernel.Points
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the launch memory and the cores' generator registers
variable (m : (ℓ : Loc nD τ sig) → Buf (Elt F) ℓ) (ρ : Dev nD → PrngReg)

/-! # The run of @main: a host stretch (three reshapes), then region 0, then region 1

## The buffer contents at each segment boundary: a fold through @main -/

/-- Core `c`'s buffers at launch. -/
abbrev W0 : Dev nD → Valuation τ sig (Elt F) := fun c b => (s₀ m ρ).mem ((c : Dev nD), b)
/-- After the three reshapes (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from: no host
    operation stands between the two regions). -/
abbrev V2 : (c : Dev nD) → (b : Ref sig .tc) → Buf (Elt F) ((c : Thread nD τ).loc b) := fun c b => W2 m ρ c b
theorem V2_of_ne (c : Dev nD) (b : Ref sig .tc) (hb : ∀ w, Pipeline.arrRef spec0 w ≠ b) : V2 m ρ c b = V1 m ρ c b :=
  W2_of_ne m ρ c b hb
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The two results: each region's output window is its last, whose array is the region's result -/

/-- The program's result `main_v4` is region 1's output array (window 3). -/
theorem W3_main_v4 (c : Dev nD) : W3 m ρ c (Proc.devRef .tc main_v4) = (dat1 (V2 m ρ) c).arrAt 3 cfg1.N :=
  W3_arr m ρ c 3
/-- The intermediate `main_v3` is region 0's output array (window 3), which region 1 reads. -/
theorem V2_main_v3 (c : Dev nD) : V2 m ρ c main_v3 = (dat0 (V1 m ρ) c).arrAt 3 cfg0.N :=
  W2_arr m ρ c 3

/-! ### The arguments end as launched: no host operation and no region writes one (region 1 reads two of them through
    input windows; region 0 has no window on an argument), so the fold at an argument's buffer walks back to the launch
    memory -/

/-- Region 1 finds `main_arg0` as launched: region 0 has no window on it and the host stretch writes no argument. -/
theorem V2_main_arg0 (c : Dev nD) : V2 m ρ c main_arg0 = m ((c : Thread nD τ).loc main_arg0) :=
  calc V2 m ρ c main_arg0
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- `main_arg0` is region 1's input window 0: an input window's array leaves the region as it entered. -/
theorem W3_main_arg0 (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (V2_main_arg0 m ρ c)

/-- `main_arg1` is no window's array of either region and no host operation's result. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Region 1 finds `main_arg2` as launched: region 0 has no window on it and the host stretch writes no argument. -/
theorem V2_main_arg2 (c : Dev nD) : V2 m ρ c main_arg2 = m ((c : Thread nD τ).loc main_arg2) :=
  calc V2 m ρ c main_arg2
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- `main_arg2` is region 1's input window 2: an input window's array leaves the region as it entered. -/
theorem W3_main_arg2 (c : Dev nD) : W3 m ρ c (Proc.devRef .tc main_arg2) = m ((c : Thread nD τ).loc main_arg2) :=
  ((W3_arr m ρ c 2).trans (((dat1 (V2 m ρ) c).arrAt_in 2 rfl _).trans (A_eq1 (V2 m ρ) c 2))).trans (V2_main_arg2 m ρ c)

/-- `main_arg3` is no window's array of either region and no host operation's result. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` is no window's array of either region and no host operation's result. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### What the host stretch leaves in the three arrays region 0 reads: each an argument, reshaped -/

/-- `main_v0` is `main_arg3` (the row ids) laid out as one row of 52224. -/
theorem V1_main_v0 (c : Dev nD) :
    V1 m ρ c main_v0 = shapeCast S1x52224 (m ((c : Thread nD τ).loc main_arg3)) shapeCasts_S52224_S1x52224 := by
  dsimp only [V1, W1, W0, hostOps0]; after_results; rfl
/-- `main_v1` is `main_arg1` (the values) laid out as one row of 52224. -/
theorem V1_main_v1 (c : Dev nD) :
    V1 m ρ c main_v1 = shapeCast S1x52224 (m ((c : Thread nD τ).loc main_arg1)) shapeCasts_S52224_S1x52224 := by
  dsimp only [V1, W1, W0, hostOps0]; after_results; rfl
/-- `main_v2` is `main_arg4` (the column ids) laid out as one column of 52224. -/
theorem V1_main_v2 (c : Dev nD) :
    V1 m ρ c main_v2 = shapeCast S52224x1 (m ((c : Thread nD τ).loc main_arg4)) shapeCasts_S52224_S52224x1 := by
  dsimp only [V1, W1, W0, hostOps0]; after_results; rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal match on the pipeline's index, so
    that the pinned configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The core's dues around a region that owes nothing

A region's proof data that owes nothing at a point, and bounds the recorded pairs by everything there, takes the
riding "owes nothing" in, and gives it back. -/

theorem owesAt_of_owes_zero {cfg : Pipeline.Cfg sig Λ₀} {c : Dev nD} (dat : Dat τ (Elt F) Unit ℕ (UR sig nD τ) ℕ cfg c)
    (t : Fin (cfg.N + 1)) (h : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h, hr]
  iintro ⟨%W, HO⟩; iexists W; isplitr; · ipureintro; exact fun _ _ => Or.inl trivial
  iexact HO

theorem owes_zero_of_owesAt {cfg : Pipeline.Cfg sig Λ₀} {c : Dev nD} (dat : Dat τ (Elt F) Unit ℕ (UR sig nD τ) ℕ cfg c)
    (t : Fin (cfg.N + 1)) (h : dat.owed t = 0) :
    dat.owesAt () t ⊢ (iprop(∃ W, owes (c : Thread nD τ) (0 : CellTallies nD τ sig Unit) W) : sProp 𝕄) := by
  unfold Pipeline.Dat.owesAt Pipeline.owesWithin
  rw [h]
  iintro ⟨%W, -, HO⟩; iexists W; iexact HO

/-! ## The regions as segments -/

set_option backward.isDefEq.respectTransparency.types false in
/-- REGION 0 over the thread state: entered from every unscoped buffer at `W1`, left at `W2`. Its arrays are
    split out of the unscoped buffers at entry and put back at the exit contents; the generator register and the scoped
    buffers no window stages go into the region's invariant and come back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes_zero (pdats m ρ 0 c) 0 (owed0 (V1 m ρ) c 0) (recorded0 (V1 m ρ) c 0)); iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_zero_of_owesAt (pdats m ρ 0 c) (Fin.last _) (owed0 (V1 m ρ) c _)); iexact HO

set_option backward.isDefEq.respectTransparency.types false in
/-- REGION 1 over the thread state: entered from every unscoped buffer at `W2`, left at `W3`. Its arrays are
    split out of the unscoped buffers at entry and put back at the exit contents; the generator register and the scoped
    buffers no window stages go into the region's invariant and come back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes_zero (pdats m ρ 1 c) 0 (owed1 (V2 m ρ) c 0) (recorded1 (V2 m ρ) c 0)); iexact HO
    isplitl [Hp]; · iexact Hp
    iexact Hrest
  hin c := by
    rw [show (pdats m ρ 1 c).Φ 0 = Pipeline.ΦA spec1 c from Phi1 (V2 m ρ) c 0]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Phi1 (V2 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_zero_of_owesAt (pdats m ρ 1 c) (Fin.last _) (owed1 (V2 m ρ) c _)); iexact HO

/-! ## @main as segments, and the launch -/

/-- @main's three segments in order: the host stretch from the launch contents, then the two regions back to back. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the last boundary's contents
    `W3`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: the run, read at the five arguments — each ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- THE VALUE: the run, read at the result — it ends holding what region 1's pipeline leaves in its output array —
    and at the five arguments. -/
theorem run_value : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.FrameKernelIdeal.Shared0.lean ====
/-
  Region 0 (the densify call, grid 2 × 51): what its three cases' runs are stated over. A point t = 51·h + r
  (h the column half, r the tile of 1024 nonzeros): the accumulator is zeroed where r = 0, the tile's
  contribution is added at every point, and the accumulator is cast and stored into the output block where r = 50.
-/
import proofs.«402548_j23965917512071_3_alg».proof.Proof.Gen.KernelIdeal.Launch
import proofs.«402548_j23965917512071_3_alg».proof.Proof.Gen.KernelIdeal.Skeleton
import proofs.«402548_j23965917512071_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first tile" (r = 0): the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 51 = 0 :=
  (by decide +kernel : ∀ t : Fin grid0.N, cond0_0 (grid0.coords t) ↔ t.val % 51 = 0)

/-- "This is the last tile" (r = 50): the accumulator is stored into the output block. -/
abbrev cond0_1 (i : grid0.Coords) : Prop := k0_cond2 i = 1#1
theorem hcond0_1 : ∀ t : Fin cfg0.N, cond0_1 (grid0.coords t) ↔ t.val % 51 = 50 :=
  (by decide +kernel : ∀ t : Fin grid0.N, cond0_1 (grid0.coords t) ↔ t.val % 51 = 50)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

abbrev VO0_3 : View sig .tc .vmem S1024x512 .bf16 := (Memref.whole cc0_stg3_0 : Memref sig .tc .vmem S1024x512 .bf16).view
abbrev ms0_0 (t : Fin cfg0.N) : Memref sig .tc .vmem S1x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x512 .f32 := Memref.whole cc0_scratch0
abbrev VS0_0 : View sig .tc .vmem S1024x512 .f32 := scM0_0.view

/-- The core's other scoped buffers that region 0 does not stage through (the second call's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.KernelIdeal.Hand

end
-- ==== Proof.FrameKernelIdeal.Run0A.lean ====
/-
  Region 0's body at a first tile (r = 0): the accumulator, whatever it held, is zeroed and the tile's contribution
  added to it; the output block is not touched.
-/
import proofs.«402548_j23965917512071_3_alg».proof.Proof.FrameKernelIdeal.Shared0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- The pieces the body leaves in the accumulator at a first tile, with the body's triple on whole staging memrefs:
    the three inputs' blocks kept, the output block handed back untouched. -/
noncomputable def kernelRun0_A (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__densify_kernel i arg2 harg2 arg3 harg3 arg4 harg4 arg5 harg5 arg6 harg6) K } := by
  refine ⟨[], ?_, fun xi3 E K => ?run⟩
  case run =>
    simp only [cc0__densify_kernel_eq_skeleton]; unfold cc0__densify_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameKernelIdeal.Run0B.lean ====
/-
  Region 0's body at a middle tile (0 < r < 50): the tile's contribution is added to what the tile before left in the
  accumulator; the output block is not touched.
-/
import proofs.«402548_j23965917512071_3_alg».proof.Proof.FrameKernelIdeal.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun0_B (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__densify_kernel i arg2 harg2 arg3 harg3 arg4 harg4 arg5 harg5 arg6 harg6) K } := by
  refine ⟨[], ?_, fun xi3 E K => ?run⟩
  case run =>
    simp only [cc0__densify_kernel_eq_skeleton]; unfold cc0__densify_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameKernelIdeal.Run0C.lean ====
/-
  Region 0's body at a last tile (r = 50): the tile's contribution is added to what the tile before left in the
  accumulator, and the accumulator, cast to the output's format, is stored over the whole output block.
-/
import proofs.«402548_j23965917512071_3_alg».proof.Proof.FrameKernelIdeal.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun0_C (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__densify_kernel i arg2 harg2 arg3 harg3 arg4 harg4 arg5 harg5 arg6 harg6) K } := by
  refine ⟨?_, ?_, fun E K => ?run⟩
  case run =>
    simp only [cc0__densify_kernel_eq_skeleton]; unfold cc0__densify_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrameKernelIdeal.Frame0.lean ====
/-
  Region 0's frame half at the entry contents V: what the accumulator and the output block hold after each grid point
  (by recursion on the point: zeroed and one tile added where r = 0, one more tile added elsewhere, the cast accumulator
  stored into the block where r = 50), the pipeline's proof data over it, and the body obligation at every point.
-/
import proofs.«402548_j23965917512071_3_alg».proof.Proof.FrameKernelIdeal.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What case A leaves in the output block's staging buffer: nothing is stored (a placeholder nothing consults: the block is neither written back nor read there). -/
def out0_A_3 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) : Vec F S1024x512 .bf16 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) (y : S1024x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x512.size (by sl_kernel_rfl) y

/-- What case A leaves in the accumulator: its stores read back. -/
def sout0_A_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) : Vec F S1024x512 .f32 :=
  VS0_0.read (Elt F) (VS0_0.writes (Elt F) VS0_0.junk (kernelRun0_A c i arg2 harg2 arg3 harg3 arg4 harg4 arg5 harg5 arg6 harg6 hc0 hc1 x0 x1 x2).2.1)

/-- What case B leaves in the output block's staging buffer: nothing is stored (a placeholder nothing consults: the block is neither written back nor read there). -/
def out0_B_3 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) : Vec F S1024x512 .bf16 :=
  VO0_3.read (Elt F) (VO0_3.writes (Elt F) VO0_3.junk (kernelRun0_B c i arg2 harg2 arg3 harg3 arg4 harg4 arg5 harg5 arg6 harg6 hc0 hc1 x0 x1 x2 xs0).1)

/-- Case B's stores into the accumulator cover it. -/
theorem scover0_B_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) (y : S1024x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x512.size (by sl_kernel_rfl) y

/-- What case B leaves in the accumulator: its stores read back. -/
def sout0_B_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) : Vec F S1024x512 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What case C leaves in the output block's staging buffer: its one store read back. -/
def out0_C_3 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) : Vec F S1024x512 .bf16 :=
  VO0_3.read (Elt F) (VO0_3.writes (Elt F) VO0_3.junk (kernelRun0_C c i arg2 harg2 arg3 harg3 arg4 harg4 arg5 harg5 arg6 harg6 hc0 hc1 x0 x1 x2 xs0).1)

/-- Case C's store covers the output block. -/
theorem cover0_C_3 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) (y : S1024x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x512.size (by sl_kernel_rfl) y

/-- Case C's stores into the accumulator cover it. -/
theorem scover0_C_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) (y : S1024x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x512.size (by sl_kernel_rfl) y

/-- What case C leaves in the accumulator: its stores read back. -/
def sout0_C_0 (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) : Vec F S1024x512 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block's buffer and the accumulator hold after each point -/

/-- After the body at position `n`: (the output block's staging buffer, the accumulator). The case is the one the
    closed forms select at `n`; cases B and C run over what the point before left in the accumulator. -/
def outsAt0 (c : Dev nD) : (n : ℕ) → n < cfg0.N → Vec F S1024x512 .bf16 × Vec F S1024x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 51 = 0 then
      if h1 : (n + 1) % 51 = 50 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 51 = 50 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 51 = 0) (h1 : ¬t.val % 51 = 50) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 51 = 0) (h1 : ¬t.val % 51 = 50) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 51 = 0) (h1 : t.val % 51 = 50) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The proof data of region 0 on core `c`: the arrays as the region finds them; after the body at point `t` each
    input's buffer at its block and the output block's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem owed0 (c : Dev nD) (t) : (dat0 V c).owed t = 0 := rfl
theorem q0 (c : Dev nD) (w) : (dat0 V c).q w = fullShare := rfl
theorem recorded0 (c : Dev nD) (t) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' memrefs hold their blocks; the closed forms say which case the point is in;
    the invariant hands the body the accumulator at what the point before left (at anything at the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 102 := lt_of_lt_of_eq t.isLt (show cfg0.N = 102 from N_0)
  by_cases h0 : t.val % 51 = 0
  · by_cases h1 : t.val % 51 = 50
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 51 = 50
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: what the accumulator holds is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ (Pipeline.ΦA spec0 c : sProp 𝕄) :=
  Phi_out0 V c _ (by rw [Fin.val_last]; have : cfg0.N = 102 := N_0; omega)

end Cert.KernelIdeal.Hand

end
-- ==== Proof.FrameKernelIdeal.Frame1.lean ====
/-
  Region 1 (the product-plus-bias call, grid of 4 row blocks), at the contents V the region is entered from: its body loads
  its three input blocks whole and stores one value over the whole output block, at every point; the proof data over that and
  the body obligation at every point.
-/
import proofs.«402548_j23965917512071_3_alg».proof.Proof.Gen.KernelIdeal.Launch
import proofs.«402548_j23965917512071_3_alg».proof.Proof.Gen.KernelIdeal.Skeleton
import proofs.«402548_j23965917512071_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the matmul-plus-bias call, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a row block of the left operand, fetched at every point): its current staging buffer holds its
    block at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole right operand, fetched at the first point only): the block index never moves, so the
    buffer holds the block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole bias vector, fetched at the first point only): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole rectangle of a 1024 × 1024 buffer. -/
abbrev r1_0 : Rect S1024x1024 := Rect.unit (s := S1024x1024) ![0, 0] S1024x1024.size inb_S1024x1024_S1024x1024_0_0
/-- The whole rectangle of a 1024 buffer. -/
abbrev r1_1 : Rect S1024 := Rect.unit (s := S1024) ![0] S1024.size inb_S1024_S1024_0

/-! ## What the body leaves in the output window's buffer -/

/-- Window 3's staging buffer after the body, from the input windows' blocks: its one store as a piece. -/
def out1_3 (x0 : Vec F S1024x1024 .f32) (x1 : Vec F S1024x1024 .bf16) (x2 : Vec F S1024 .f32) : Vec F S1024x1024 .f32 :=
  View.canon [⟨r1_0, k1_pay1 (View.ld x0 r1_0) (View.ld x1 r1_0) (View.ld x2 r1_1)⟩]

/-- The one store is over the whole rectangle, so it covers the buffer. -/
theorem cover1_3 (p0 : Vec F S1024x1024 .f32) (y : S1024x1024.Idx) :
    ∃ pc ∈ ([⟨r1_0, p0⟩] : List (View.Piece (Elt F) S1024x1024 .f32)), y ∈ pc.1.set :=
  View.cover_of_tiled [⟨r1_0, p0⟩] S1024x1024.size (by rfl) y

/-! ## The body's triple -/

set_option maxHeartbeats 1000000 in
/-- The kernel body on whole staging memrefs, the three inputs' at read contents `x0 x1 x2` and the output's at
    anything, runs to the continuation holding the inputs' as they were and the output's at `out1_3` of the inputs':
    three whole loads, a load of the output buffer whose value is not used, and one store over the whole output. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .f32) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__matmul_bias_kernel i arg1 harg1 arg2 harg2 arg3 harg3 arg4 harg4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of region 1 on core `c`: the arrays as the region finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- Nothing is owed at any point. -/
theorem owed1 (c : Dev nD) (t) : (dat1 V c).owed t = 0 := by dsimp only [dat1]
/-- Every window is held at the full share. -/
theorem q1 (c : Dev nD) (w) : (dat1 V c).q w = fullShare := by dsimp only [dat1]
/-- Every pair of cells counts as recorded (the default). -/
theorem recorded1 (c : Dev nD) (t) : (dat1 V c).recorded t = Set.univ := rfl
/-- The invariant is the same at every point. -/
theorem Phi1 (c : Dev nD) (t) : (dat1 V c).Φ t = Pipeline.ΦA spec1 c := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKernelIdeal.Run.lean ====
/-
  The whole program as three segments — the host stretch of three reshapes, the densify region, the product region — and the
  buffer contents at each boundary: after the reshapes, after region 0 (its output array at what its write-backs leave,
  everything else kept), after region 1 likewise. Every execution ends with each unscoped buffer at the last boundary's
  contents; the arguments are written by no segment, and the result array holds what region 1's write-backs leave.
-/
import proofs.«402548_j23965917512071_3_alg».proof.Proof.FrameKernelIdeal.Frame0
import proofs.«402548_j23965917512071_3_alg».proof.Proof.FrameKernelIdeal.Frame1
import proofs.«402548_j23965917512071_3_alg».proof.Proof.Gen.KernelIdeal.Launch
import proofs.«402548_j23965917512071_3_alg».proof.Proof.Gen.KernelIdeal.Skeleton
import proofs.«402548_j23965917512071_3_alg».proof.Proof.Gen.KernelIdeal.Points
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the launch memory and the cores' generator registers
variable (m : (ℓ : Loc nD τ sig) → Buf (Elt F) ℓ) (ρ : Dev nD → PrngReg)

/-! # The run of @main: a host stretch (three reshapes), then region 0, then region 1

## The buffer contents at each segment boundary: a fold through @main -/

/-- Core `c`'s buffers at launch. -/
abbrev W0 : Dev nD → Valuation τ sig (Elt F) := fun c b => (s₀ m ρ).mem ((c : Dev nD), b)
/-- After the three reshapes (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from: no host
    operation stands between the two regions). -/
abbrev V2 : (c : Dev nD) → (b : Ref sig .tc) → Buf (Elt F) ((c : Thread nD τ).loc b) := fun c b => W2 m ρ c b
theorem V2_of_ne (c : Dev nD) (b : Ref sig .tc) (hb : ∀ w, Pipeline.arrRef spec0 w ≠ b) : V2 m ρ c b = V1 m ρ c b :=
  W2_of_ne m ρ c b hb
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The two results: each region's output window is its last, whose array is the region's result -/

/-- The program's result `main_v4` is region 1's output array (window 3). -/
theorem W3_main_v4 (c : Dev nD) : W3 m ρ c (Proc.devRef .tc main_v4) = (dat1 (V2 m ρ) c).arrAt 3 cfg1.N :=
  W3_arr m ρ c 3
/-- The intermediate `main_v3` is region 0's output array (window 3), which region 1 reads. -/
theorem V2_main_v3 (c : Dev nD) : V2 m ρ c main_v3 = (dat0 (V1 m ρ) c).arrAt 3 cfg0.N :=
  W2_arr m ρ c 3

/-! ### The arguments end as launched: no host operation and no region writes one (region 1 reads two of them through
    input windows; region 0 has no window on an argument), so the fold at an argument's buffer walks back to the launch
    memory -/

/-- Region 1 finds `main_arg0` as launched: region 0 has no window on it and the host stretch writes no argument. -/
theorem V2_main_arg0 (c : Dev nD) : V2 m ρ c main_arg0 = m ((c : Thread nD τ).loc main_arg0) :=
  calc V2 m ρ c main_arg0
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- `main_arg0` is region 1's input window 0: an input window's array leaves the region as it entered. -/
theorem W3_main_arg0 (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (V2_main_arg0 m ρ c)

/-- `main_arg1` is no window's array of either region and no host operation's result. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Region 1 finds `main_arg2` as launched: region 0 has no window on it and the host stretch writes no argument. -/
theorem V2_main_arg2 (c : Dev nD) : V2 m ρ c main_arg2 = m ((c : Thread nD τ).loc main_arg2) :=
  calc V2 m ρ c main_arg2
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- `main_arg2` is region 1's input window 2: an input window's array leaves the region as it entered. -/
theorem W3_main_arg2 (c : Dev nD) : W3 m ρ c (Proc.devRef .tc main_arg2) = m ((c : Thread nD τ).loc main_arg2) :=
  ((W3_arr m ρ c 2).trans (((dat1 (V2 m ρ) c).arrAt_in 2 rfl _).trans (A_eq1 (V2 m ρ) c 2))).trans (V2_main_arg2 m ρ c)

/-- `main_arg3` is no window's array of either region and no host operation's result. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` is no window's array of either region and no host operation's result. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### What the host stretch leaves in the three arrays region 0 reads: each an argument, reshaped -/

/-- `main_v0` is `main_arg3` (the row ids) laid out as one row of 52224. -/
theorem V1_main_v0 (c : Dev nD) :
    V1 m ρ c main_v0 = shapeCast S1x52224 (m ((c : Thread nD τ).loc main_arg3)) shapeCasts_S52224_S1x52224 := by
  dsimp only [V1, W1, W0, hostOps0]; after_results; rfl
/-- `main_v1` is `main_arg1` (the values) laid out as one row of 52224. -/
theorem V1_main_v1 (c : Dev nD) :
    V1 m ρ c main_v1 = shapeCast S1x52224 (m ((c : Thread nD τ).loc main_arg1)) shapeCasts_S52224_S1x52224 := by
  dsimp only [V1, W1, W0, hostOps0]; after_results; rfl
/-- `main_v2` is `main_arg4` (the column ids) laid out as one column of 52224. -/
theorem V1_main_v2 (c : Dev nD) :
    V1 m ρ c main_v2 = shapeCast S52224x1 (m ((c : Thread nD τ).loc main_arg4)) shapeCasts_S52224_S52224x1 := by
  dsimp only [V1, W1, W0, hostOps0]; after_results; rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal match on the pipeline's index, so
    that the pinned configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The core's dues around a region that owes nothing

A region's proof data that owes nothing at a point, and bounds the recorded pairs by everything there, takes the
riding "owes nothing" in, and gives it back. -/

theorem owesAt_of_owes_zero {cfg : Pipeline.Cfg sig Λ₀} {c : Dev nD} (dat : Dat τ (Elt F) Unit ℕ (UR sig nD τ) ℕ cfg c)
    (t : Fin (cfg.N + 1)) (h : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h, hr]
  iintro ⟨%W, HO⟩; iexists W; isplitr; · ipureintro; exact fun _ _ => Or.inl trivial
  iexact HO

theorem owes_zero_of_owesAt {cfg : Pipeline.Cfg sig Λ₀} {c : Dev nD} (dat : Dat τ (Elt F) Unit ℕ (UR sig nD τ) ℕ cfg c)
    (t : Fin (cfg.N + 1)) (h : dat.owed t = 0) :
    dat.owesAt () t ⊢ (iprop(∃ W, owes (c : Thread nD τ) (0 : CellTallies nD τ sig Unit) W) : sProp 𝕄) := by
  unfold Pipeline.Dat.owesAt Pipeline.owesWithin
  rw [h]
  iintro ⟨%W, -, HO⟩; iexists W; iexact HO

/-! ## The regions as segments -/

set_option backward.isDefEq.respectTransparency.types false in
/-- REGION 0 over the thread state: entered from every unscoped buffer at `W1`, left at `W2`. Its arrays are
    split out of the unscoped buffers at entry and put back at the exit contents; the generator register and the scoped
    buffers no window stages go into the region's invariant and come back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes_zero (pdats m ρ 0 c) 0 (owed0 (V1 m ρ) c 0) (recorded0 (V1 m ρ) c 0)); iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_zero_of_owesAt (pdats m ρ 0 c) (Fin.last _) (owed0 (V1 m ρ) c _)); iexact HO

set_option backward.isDefEq.respectTransparency.types false in
/-- REGION 1 over the thread state: entered from every unscoped buffer at `W2`, left at `W3`. Its arrays are
    split out of the unscoped buffers at entry and put back at the exit contents; the generator register and the scoped
    buffers no window stages go into the region's invariant and come back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes_zero (pdats m ρ 1 c) 0 (owed1 (V2 m ρ) c 0) (recorded1 (V2 m ρ) c 0)); iexact HO
    isplitl [Hp]; · iexact Hp
    iexact Hrest
  hin c := by
    rw [show (pdats m ρ 1 c).Φ 0 = Pipeline.ΦA spec1 c from Phi1 (V2 m ρ) c 0]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Phi1 (V2 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_zero_of_owesAt (pdats m ρ 1 c) (Fin.last _) (owed1 (V2 m ρ) c _)); iexact HO

/-! ## @main as segments, and the launch -/

/-- @main's three segments in order: the host stretch from the launch contents, then the two regions back to back. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the last boundary's contents
    `W3`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: the run, read at the five arguments — each ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- THE VALUE: the run, read at the result — it ends holding what region 1's pipeline leaves in its output array —
    and at the five arguments. -/
theorem run_value : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.Val0Pieces.lean ====
/-
  Region 0's three cases, read back as values. Whatever the float values are, the accumulator after a point is
  the tile payload of the point's three input blocks over what the accumulator held before (over the zero block at
  a first tile, where it is zeroed and read back first), and at a last tile the output block receives the cast of
  that final accumulator.
-/
import proofs.«402548_j23965917512071_3_alg».proof.Proof.FrameKernelIdeal.Frame0
import Idealize.ShloMosaic.Lib.Pipeline.Value
import Idealize.ShloMosaic.Lib.Tactic

set_option maxRecDepth 16384

noncomputable section

namespace Cert.KernelIdeal.Val0

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Hand

variable {F : FTy → Type} [FloatOps F]

/-- The zero offsets of a whole-buffer access. -/
theorem hz2 : (![0, 0] : Fin 2 → Nat) = fun _ => 0 := funext fun a => by fin_cases a <;> rfl

/-- At a middle tile the accumulator ends at the payload of the three blocks and of what it held. -/
theorem sout_B (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec F S1x1024 .i32) (x1 : Vec F S1024x1 .i32) (x2 : Vec F S1x1024 .f32) (xs0 : Vec F S1024x512 .f32) :
    sout0_B_0 c i arg2 harg2 arg3 harg3 arg4 harg4 arg5 harg5 arg6 harg6 hc0 hc1 x0 x1 x2 xs0 = k0_pay2 i x0 x2 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S1x1024) hz2, View.ld_unit_zero (S := S1024x1) hz2, View.ld_unit_zero (S := S1024x512) hz2]

/-- At a first tile the accumulator is zeroed, read back, and the tile added: the payload over the zero block. -/
theorem sout_A (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1x1024 .i32) (x1 : Vec F S1024x1 .i32) (x2 : Vec F S1x1024 .f32) :
    sout0_A_0 c i arg2 harg2 arg3 harg3 arg4 harg4 arg5 harg5 arg6 harg6 hc0 hc1 x0 x1 x2 = k0_pay2 i x0 x2 x1 (k0_pay1) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x512) hz2, View.readCov_unit_zero (S := S1024x512) _ hz2]
  simp only [View.readAt_eq_ld, harg2.read_unread, harg3.read_unread, harg4.read_unread, harg6.read_unread, View.ld_unit_zero (S := S1x1024) hz2, View.ld_unit_zero (S := S1024x1) hz2, View.ld_unit_zero (S := S1024x512) hz2]

/-- At a last tile the accumulator ends as at a middle one. -/
theorem sout_C (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) :
    sout0_C_0 c i arg2 harg2 arg3 harg3 arg4 harg4 arg5 harg5 arg6 harg6 hc0 hc1 x0 x1 x2 xs0 = k0_pay2 i x0 x2 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S1x1024) hz2, View.ld_unit_zero (S := S1024x1) hz2, View.ld_unit_zero (S := S1024x512) hz2]

/-- At a last tile the output block receives the cast of the accumulator's final contents. -/
theorem out_C (c : Dev nD) (i : grid0.Coords) (arg2 : Memref sig .tc .vmem S1x1024 .i32) (harg2 : arg2.IsWhole) (arg3 : Memref sig .tc .vmem S1024x1 .i32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1x1024 .i32) (x1 : Vec F S1024x1 .i32) (x2 : Vec F S1x1024 .f32) (xs0 : Vec F S1024x512 .f32) :
    out0_C_3 c i arg2 harg2 arg3 harg3 arg4 harg4 arg5 harg5 arg6 harg6 hc0 hc1 x0 x1 x2 xs0 = k0_pay3 (k0_pay2 i x0 x2 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.readCov_unit_zero (S := S1024x512) _ hz2, View.ld_unit_zero (S := S1x1024) hz2, View.ld_unit_zero (S := S1024x1) hz2, View.ld_unit_zero (S := S1024x512) hz2]

end Cert.KernelIdeal.Val0

end
-- ==== Proof.SpecDefs.lean ====
/-
  What the layer computes, index by index, over the extended reals: nonzero number k carries a weight w k, an input
  column iin k and an output column iout k, and

      out b j = (∑ k with iout k = j, a b (iin k) · w k) + bias j.

  The kernel reaches it through a dense matrix D i j = ∑ k, [iin k = i] · w k · [iout k = j], built 1024 nonzeros at
  a time (k = 1024·r + t), as out b j = (∑ i, a b i · D i j) + bias j.
-/
import Idealize.ShloMosaic.Lib.ValueIdx

noncomputable section

open scoped BigOperators

namespace Cert.Spec

open Idealize.ShloMosaic Idealize.ShloMosaic.ValueIdx

abbrev SA : Shape := ⟨2, ![4096, 1024]⟩
abbrev SK : Shape := ⟨1, ![52224]⟩
abbrev SB : Shape := ⟨1, ![1024]⟩

/-- The indicator "the word x is the column i", as an extended real. -/
def oh (x : BitVec 32) (i : ℕ) : EReal := if x.toNat = i then 1 else 0

/-- Nonzero number t of tile r. -/
def kk (r : Fin 51) (t : Fin 1024) : Fin 52224 := ⟨1024 * r.val + t.val, by have := r.isLt; have := t.isLt; omega⟩

/-- The dense matrix the first call builds, as the kernel sums it: tile by tile, and within a tile nonzero by nonzero. -/
def dense (w : SK.Idx → EReal) (iin iout : SK.Idx → BitVec 32) (i j : Fin 1024) : EReal :=
  ∑ r : Fin 51, ∑ t : Fin 1024, (oh (iin (ix1 (kk r t))) i.val * w (ix1 (kk r t))) * oh (iout (ix1 (kk r t))) j.val

/-- The result through the dense matrix (what the two calls compute). -/
def viaDense (a : SA.Idx → EReal) (w : SK.Idx → EReal) (bias : SB.Idx → EReal) (iin iout : SK.Idx → BitVec 32) :
    SA.Idx → EReal :=
  fun y => (∑ i : Fin 1024, a (ix2 (y 0) i) * dense w iin iout i (y 1)) + bias (ix1 (y 1))

/-- The layer's result: per output column, the weighted sum of the gathered input columns, plus the bias. -/
def out (a : SA.Idx → EReal) (w : SK.Idx → EReal) (bias : SB.Idx → EReal) (iin iout : SK.Idx → BitVec 32) :
    SA.Idx → EReal :=
  fun y => (∑ k : Fin 52224, if (iout (ix1 k)).toNat = (y 1).val
      then a (ix2 (y 0) ⟨(iin (ix1 k)).toNat % 1024, Nat.mod_lt _ (by decide)⟩) * w (ix1 k) else 0) + bias (ix1 (y 1))

/-- Every entry is a real number. -/
def Fin_ {s : Shape} (x : s.Idx → EReal) : Prop := ∀ i, ∃ r : ℝ, x i = (r : EReal)

/-- Every index word is a column number. -/
def InRange (ix : SK.Idx → BitVec 32) : Prop := ∀ k, (ix k).toNat < 1024

end Cert.Spec

end
-- ==== Proof.Val0Payload.lean ====
/-
  The first call's payloads read at an index, at the ideal values.

  The accumulating payload adds to the accumulator block a product of two indicator matrices: rows p against the
  tile's 1024 nonzeros t, entry [iin t = p] · w t, and nonzeros t against the block's 512 columns q, entry
  [iout t = q + 512·g] where g is the column-block number. Each indicator is built as a word comparison widened to
  32 bits and read as a signed integer, which is exactly 1 or 0; the roundings to the narrow float type are the
  identity at the ideal values. So the payload at (p, q) is the accumulator there plus
  ∑ t, ([iin t = p] · w t) · [iout t = q + 512·g].
-/
import proofs.«402548_j23965917512071_3_alg».proof.Proof.Gen.KernelIdeal.Skeleton
import proofs.«402548_j23965917512071_3_alg».proof.Proof.SpecDefs
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val0

open Idealize.ShloMosaic Idealize.ShloMosaic.ValueIdx Cert.KernelIdeal Cert.KernelIdeal.Gen

/-! ## Words -/

/-- A 32-bit word is the word of a number below 2³² exactly when it reads as that number. -/
theorem word_eq_ofNat_iff (x : BitVec 32) (n : ℕ) (hn : n < 4294967296) : x = BitVec.ofNat 32 n ↔ x.toNat = n := by
  constructor
  · rintro rfl
    rw [BitVec.toNat_ofNat]
    exact Nat.mod_eq_of_lt hn
  · intro h
    apply BitVec.eq_of_toNat_eq
    rw [BitVec.toNat_ofNat, h]
    exact (Nat.mod_eq_of_lt hn).symm

/-- The equality test of two words, widened to 32 bits and read as a signed integer, is 1 when they are equal and 0
    when they are not. -/
theorem sitofp_cmpi_eq (x y : BitVec 32) :
    (FloatOps.sitofp (F := Ideal) .f32 ((IntOp.cmpi .eq x y).setWidth 32) : EReal) = if x = y then 1 else 0 := by
  have h1 : ((1#1 : BitVec 1).setWidth 32).toInt = 1 := by decide
  have h0 : ((0#1 : BitVec 1).setWidth 32).toInt = 0 := by decide
  by_cases h : x = y
  · have hc : IntOp.cmpi .eq x y = 1#1 := by simp [IntOp.cmpi, h]
    rw [if_pos h, hc]
    show (((((1#1 : BitVec 1).setWidth 32).toInt : ℤ) : ℝ) : EReal) = 1
    rw [h1, Int.cast_one, EReal.coe_one]
  · have hc : IntOp.cmpi .eq x y = 0#1 := by
      show BitVec.ofBool (x == y) = 0#1
      rw [beq_eq_false_iff_ne.mpr h]
      rfl
    rw [if_neg h, hc]
    show (((((0#1 : BitVec 1).setWidth 32).toInt : ℤ) : ℝ) : EReal) = 0
    rw [h0, Int.cast_zero, EReal.coe_zero]

/-- Against the word of a row number p below 1024, the test is the indicator "the word is the column p". -/
theorem ind_in (x : BitVec 32) (p : Fin 1024) :
    (FloatOps.sitofp (F := Ideal) .f32 ((IntOp.cmpi .eq x (BitVec.ofNat 32 p.val)).setWidth 32) : EReal)
      = Cert.Spec.oh x p.val := by
  rw [sitofp_cmpi_eq]
  unfold Cert.Spec.oh
  exact if_congr (word_eq_ofNat_iff x p.val (by have := p.isLt; omega)) rfl rfl

/-- The column number inside the block, offset by 512 times the block number g < 2, as a word. -/
theorem col_word (q : Fin 512) (g : ℕ) (hg : g < 2) :
    IntOp.addi (BitVec.ofNat 32 q.val) (Scalar.muli (BitVec.ofNat 32 g) 512#32) = BitVec.ofNat 32 (q.val + 512 * g) := by
  apply BitVec.eq_of_toNat_eq
  show (BitVec.ofNat 32 q.val + BitVec.ofNat 32 g * 512#32).toNat = _
  have hq := q.isLt
  simp only [BitVec.toNat_add, BitVec.toNat_mul, BitVec.toNat_ofNat]
  omega

/-- Against that word, the test is the indicator "the word is the column q + 512·g". -/
theorem ind_out (x : BitVec 32) (q : Fin 512) (g : ℕ) (hg : g < 2) :
    (FloatOps.sitofp (F := Ideal) .f32 ((IntOp.cmpi .eq x
        (IntOp.addi (BitVec.ofNat 32 q.val) (Scalar.muli (BitVec.ofNat 32 g) 512#32))).setWidth 32) : EReal)
      = Cert.Spec.oh x (q.val + 512 * g) := by
  rw [col_word q g hg, sitofp_cmpi_eq]
  unfold Cert.Spec.oh
  exact if_congr (word_eq_ofNat_iff x _ (by have := q.isLt; omega)) rfl rfl

/-! ## One column broadcast over many -/

/-- An [a, 1] array broadcast to [a, b] reads, at (r, c), the operand's one column at r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## The product's operand indices -/

theorem lhs_row (j : S1024x512.Idx) (k : dot_S1024x1024_S1024x512_S1024x512_1_0_0_1_n_n.contr.Idx) :
    (dot_S1024x1024_S1024x512_S1024x512_1_0_0_1_n_n.lhsIdx j k 0).val = (j 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  simp only [Fin.val_cast]
  have key : ∀ (a b : Nat) (ha : a < S1024x512.rank) (hb : b < S1024x512.rank), a = b → (j ⟨a, ha⟩).val = (j ⟨b, hb⟩).val :=
    fun a b ha hb h => by subst h; rfl
  exact key _ 0 _ (by decide) (by decide)

theorem lhs_contr (j : S1024x512.Idx) (k : dot_S1024x1024_S1024x512_S1024x512_1_0_0_1_n_n.contr.Idx) :
    (dot_S1024x1024_S1024x512_S1024x512_1_0_0_1_n_n.lhsIdx j k 1).val = (k ⟨0, by decide⟩).val :=
  DotDims.lhsIdx_val_of_single (d := dot_S1024x1024_S1024x512_S1024x512_1_0_0_1_n_n) rfl j k

theorem rhs_contr (j : S1024x512.Idx) (k : dot_S1024x1024_S1024x512_S1024x512_1_0_0_1_n_n.contr.Idx) :
    (dot_S1024x1024_S1024x512_S1024x512_1_0_0_1_n_n.rhsIdx j k 0).val = (k ⟨0, by decide⟩).val :=
  DotDims.rhsIdx_val_of_single (d := dot_S1024x1024_S1024x512_S1024x512_1_0_0_1_n_n) rfl j k

theorem rhs_col (j : S1024x512.Idx) (k : dot_S1024x1024_S1024x512_S1024x512_1_0_0_1_n_n.contr.Idx) :
    (dot_S1024x1024_S1024x512_S1024x512_1_0_0_1_n_n.rhsIdx j k 1).val = (j 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  simp only [Fin.val_cast]
  have key : ∀ (a b : Nat) (ha : a < S1024x512.rank) (hb : b < S1024x512.rank), a = b → (j ⟨a, ha⟩).val = (j ⟨b, hb⟩).val :=
    fun a b ha hb h => by subst h; rfl
  exact key _ 1 _ (by decide) (by decide)

/-- The product into the zero block, read at (p, q): the sum over the 1024 contraction positions t of the left
    operand at (p, t) times the right operand at (t, q). -/
theorem matmul_zero_apply (A : FVec Ideal S1024x1024 .bf16) (B : FVec Ideal S1024x512 .bf16) (p : Fin 1024) (q : Fin 512) :
    matmul dot_S1024x1024_S1024x512_S1024x512_1_0_0_1_n_n none A B (constant (F := Ideal) S1024x512 .f32 0x00000000#32) (ix2 p q)
      = ∑ t : Fin 1024, A (ix2 p t) * B (ix2 t q) := by
  refine (Ideal.matmul_constant_zero_apply dot_S1024x1024_S1024x512_S1024x512_1_0_0_1_n_n none A B (ix2 p q)).trans ?_
  refine (Equiv.sum_comp (contrEquiv1 dot_S1024x1024_S1024x512_S1024x512_1_0_0_1_n_n 1024 rfl rfl).symm _).symm.trans ?_
  refine Finset.sum_congr rfl fun t _ => ?_
  have hl : dot_S1024x1024_S1024x512_S1024x512_1_0_0_1_n_n.lhsIdx (ix2 p q)
      ((contrEquiv1 dot_S1024x1024_S1024x512_S1024x512_1_0_0_1_n_n 1024 rfl rfl).symm t) = ix2 p t :=
    Shape.idx_ext₂ (lhs_row _ _)
      ((lhs_contr _ _).trans (contrEquiv1_symm_val dot_S1024x1024_S1024x512_S1024x512_1_0_0_1_n_n 1024 rfl rfl t))
  have hr : dot_S1024x1024_S1024x512_S1024x512_1_0_0_1_n_n.rhsIdx (ix2 p q)
      ((contrEquiv1 dot_S1024x1024_S1024x512_S1024x512_1_0_0_1_n_n 1024 rfl rfl).symm t) = ix2 t q :=
    Shape.idx_ext₂ ((rhs_contr _ _).trans (contrEquiv1_symm_val dot_S1024x1024_S1024x512_S1024x512_1_0_0_1_n_n 1024 rfl rfl t))
      (rhs_col _ _)
  rw [hl, hr]

/-- The accumulating payload at (p, q): the accumulator there plus the tile's 1024 nonzeros' contributions. -/
theorem pay2_apply (i : grid0.Coords) (v4 : Vec Ideal S1x1024 .i32) (v11 : Vec Ideal S1x1024 .f32) (v20 : Vec Ideal S1024x1 .i32) (v28 : Vec Ideal S1024x512 .f32) (p : Fin 1024) (q : Fin 512) :
    k0_pay2 (F := Ideal) i v4 v11 v20 v28 (ix2 p q) = v28 (ix2 p q) + ∑ t : Fin 1024, (Cert.Spec.oh (v4 (ix2 0 t)) p.val * v11 (ix2 0 t)) * Cert.Spec.oh (v20 (ix2 t 0)) (q.val + 512 * (i 0).val) := by
  have hi0 : (i 0).val < 2 := (i 0).isLt
  unfold k0_pay2
  simp only [shapeCast_self]
  rw [addf_apply]
  refine congrArg (v28 (ix2 p q) + ·) ?_
  refine (matmul_zero_apply _ _ p q).trans ?_
  refine Finset.sum_congr rfl fun t _ => ?_
  show ((FloatOps.sitofp (F := Ideal) .f32 ((IntOp.cmpi .eq
            (broadcastTo S1024x1024 v4 broadcasts_S1x1024_S1024x1024 (ix2 p t))
            (iota .tc S1024x1024 32 [0] iota_S1024x1024_d0_w32 (ix2 p t))).setWidth 32) : EReal)
          * (broadcastTo S1024x1024 (truncf (F := Ideal) .bf16 v11 bitsLt_bf16_f32) broadcasts_S1x1024_S1024x1024
              (ix2 p t) : EReal))
        * (FloatOps.sitofp (F := Ideal) .f32 ((IntOp.cmpi .eq
            (broadcastTo S1024x512 v20 broadcasts_S1024x1_S1024x512 (ix2 t q))
            (IntOp.addi (iota .tc S1024x512 32 [1] iota_S1024x512_d1_w32 (ix2 t q))
              (Scalar.muli (BitVec.ofNat 32 (i 0).val) 512#32))).setWidth 32) : EReal)
      = _
  rw [broadcastTo_1b_ab_apply v4, broadcastTo_1b_ab_apply (truncf (F := Ideal) .bf16 v11 bitsLt_bf16_f32),
    broadcastTo_a1_ab_apply v20, iota_single_apply, iota_single_apply]
  exact congrArg₂ (· * ·) (congrArg (· * v11 (ix2 0 t)) (ind_in _ p)) (ind_out _ q _ hi0)

/-- The resetting payload is the zero block. -/
theorem pay1_apply (y : S1024x512.Idx) : k0_pay1 (F := Ideal) y = 0 := by
  unfold k0_pay1
  simp only [shapeCast_self]
  exact Ideal.ofBits_zero_f32

/-- The payload written back is the accumulator itself: rounding to the narrow float type is the identity at the
    ideal values. -/
theorem pay3_apply (v36 : Vec Ideal S1024x512 .f32) : k0_pay3 (F := Ideal) v36 = v36 := by
  unfold k0_pay3
  rfl

end Cert.KernelIdeal.Val0

end
-- ==== Proof.Val0Acc.lean ====
/-
  The accumulator of region 0 after each grid point, at the ideal instance. A point is t = 51·h + r: h is the half
  of the 1024 output columns, r the tile of 1024 nonzeros. Window 0 (input-column words) and window 2 (weights)
  hold at point t the columns 1024·r … 1024·r + 1023 of their one-row arrays, window 1 (output-column words) the
  same rows of its one-column array. A point adds to entry (p, q) of the accumulator the tile's contribution

      ∑ k in the tile, [iin k = p] · w k · [iout k = q + 512·h],

  starting from zero where r = 0; so after point t the accumulator holds the contributions of tiles 0 … r, and at
  r = 50 the sum over all 51 tiles — by induction on the point, one step of the induction per control case.
-/
import proofs.«402548_j23965917512071_3_alg».proof.Proof.Val0Pieces
import proofs.«402548_j23965917512071_3_alg».proof.Proof.Val0Payload
import proofs.«402548_j23965917512071_3_alg».proof.Proof.SpecDefs
import Idealize.ShloMosaic.Lib.ValueIdx

set_option maxRecDepth 16384

noncomputable section

namespace Cert.KernelIdeal.Val0

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand
open scoped BigOperators

variable (V : (c : Dev nD) → (b : Ref sig .tc) → Buf (Elt Ideal) ((c : Thread nD τ).loc b))

/-! ## The three arrays the region reads, and its blocks of them -/

/-- The input-column words, one per nonzero. -/
abbrev iinA (c : Dev nD) : S1x52224.Idx → BitVec 32 := V c main_v0
/-- The weights, one per nonzero. -/
abbrev wgtA (c : Dev nD) : S1x52224.Idx → EReal := V c main_v1
/-- The output-column words, one per nonzero. -/
abbrev ioutA (c : Dev nD) : S52224x1.Idx → BitVec 32 := V c main_v2

/-- The blocks of the three arrays that point `t` works on. -/
abbrev blk0 (c : Dev nD) (t : Fin cfg0.N) : Vec Ideal S1x1024 .i32 := iblk0 V c 0 t
abbrev blk1 (c : Dev nD) (t : Fin cfg0.N) : Vec Ideal S1024x1 .i32 := iblk0 V c 1 t
abbrev blk2 (c : Dev nD) (t : Fin cfg0.N) : Vec Ideal S1x1024 .f32 := iblk0 V c 2 t

/-- Nonzero number `t` of tile `r`, for any natural `r` (only `r < 51` is ever used). -/
def kkN (r : ℕ) (t : Fin 1024) : Fin 52224 := ⟨(1024 * r + t.val) % 52224, Nat.mod_lt _ (by decide)⟩

theorem kkN_eq (r : Fin 51) (t : Fin 1024) : kkN r.val t = Cert.Spec.kk r t :=
  Fin.ext (Nat.mod_eq_of_lt (by have := r.isLt; have := t.isLt; omega))

/-- Where each window's block sits at point `t = 51·h + r`: the three inputs at tile `r`, the output at column half `h`. -/
theorem acc_idx_facts : ∀ t : Fin cfg0.N,
    win0_0.index t (0 : Fin 2) = 0 ∧ win0_0.index t (1 : Fin 2) = t.val % 51
    ∧ win0_1.index t (0 : Fin 2) = t.val % 51 ∧ win0_1.index t (1 : Fin 2) = 0
    ∧ win0_2.index t (0 : Fin 2) = 0 ∧ win0_2.index t (1 : Fin 2) = t.val % 51
    ∧ win0_3.index t (0 : Fin 2) = 0 ∧ win0_3.index t (1 : Fin 2) = t.val / 51
    ∧ ((grid0.coords t) 0).val = t.val / 51 :=
  (by decide +kernel : ∀ t : Fin grid0.N, _)

/-- Point `t`'s block of input-column words is tile `t % 51` of the array; -/
theorem blk0_apply (c : Dev nD) (t : Fin cfg0.N) (k : Fin 1024) :
    blk0 V c t (ix2 0 k) = iinA V c (ix2 0 (kkN (t.val % 51) k)) := by
  unfold blk0 iblk0
  rw [View.read_apply]
  show V c main_v0 (((cfg0.win 0).blk t).view.emb (ix2 0 k)) = V c main_v0 (ix2 0 (kkN (t.val % 51) k))
  obtain ⟨e0, e1, -⟩ := acc_idx_facts t
  have hN : t.val < 102 := lt_of_lt_of_eq t.isLt (show cfg0.N = 102 from N_0)
  refine congrArg _ (funext fun a => Fin.ext ?_)
  match a with
  | ⟨0, _⟩ => show win0_0.index t (0 : Fin 2) * 1 + 1 * 0 = 0; rw [e0]
  | ⟨1, _⟩ => show win0_0.index t (1 : Fin 2) * 1024 + 1 * k.val = (1024 * (t.val % 51) + k.val) % 52224; rw [e1]; have := k.isLt; omega

/-- its block of output-column words likewise; -/
theorem blk1_apply (c : Dev nD) (t : Fin cfg0.N) (k : Fin 1024) :
    blk1 V c t (ix2 k 0) = ioutA V c (ix2 (kkN (t.val % 51) k) 0) := by
  unfold blk1 iblk0
  rw [View.read_apply]
  show V c main_v2 (((cfg0.win 1).blk t).view.emb (ix2 k 0)) = V c main_v2 (ix2 (kkN (t.val % 51) k) 0)
  obtain ⟨-, -, e0, e1, -⟩ := acc_idx_facts t
  have hN : t.val < 102 := lt_of_lt_of_eq t.isLt (show cfg0.N = 102 from N_0)
  refine congrArg _ (funext fun a => Fin.ext ?_)
  match a with
  | ⟨0, _⟩ => show win0_1.index t (0 : Fin 2) * 1024 + 1 * k.val = (1024 * (t.val % 51) + k.val) % 52224; rw [e0]; have := k.isLt; omega
  | ⟨1, _⟩ => show win0_1.index t (1 : Fin 2) * 1 + 1 * 0 = 0; rw [e1]

/-- and its block of weights. -/
theorem blk2_apply (c : Dev nD) (t : Fin cfg0.N) (k : Fin 1024) :
    blk2 V c t (ix2 0 k) = wgtA V c (ix2 0 (kkN (t.val % 51) k)) := by
  unfold blk2 iblk0
  rw [View.read_apply]
  show V c main_v1 (((cfg0.win 2).blk t).view.emb (ix2 0 k)) = V c main_v1 (ix2 0 (kkN (t.val % 51) k))
  obtain ⟨-, -, -, -, e0, e1, -⟩ := acc_idx_facts t
  have hN : t.val < 102 := lt_of_lt_of_eq t.isLt (show cfg0.N = 102 from N_0)
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * k.val = (1024 * (t.val % 51) + k.val) % 52224; rw [e1]; have := k.isLt; omega

/-! ## One tile's contribution, and the accumulator after each point -/

/-- What tile `r` adds to entry `(p, col)` of the dense matrix: over the tile's 1024 nonzeros, the weight where the
    input column is `p` and the output column is `col`. -/
def tile (c : Dev nD) (r : ℕ) (p : Fin 1024) (col : ℕ) : EReal :=
  ∑ t' : Fin 1024, (Cert.Spec.oh (iinA V c (ix2 0 (kkN r t'))) p.val * wgtA V c (ix2 0 (kkN r t')))
    * Cert.Spec.oh (ioutA V c (ix2 (kkN r t') 0)) col

/-- The payload's sum over the blocks of point `t` is tile `t % 51`'s contribution to the column half `t / 51`. -/
theorem blocks_sum (c : Dev nD) (t : Fin cfg0.N) (p : Fin 1024) (q : Fin 512) :
    (∑ t' : Fin 1024, (Cert.Spec.oh (blk0 V c t (ix2 0 t')) p.val * blk2 V c t (ix2 0 t'))
        * Cert.Spec.oh (blk1 V c t (ix2 t' 0)) (q.val + 512 * ((grid0.coords t) 0).val))
      = tile V c (t.val % 51) p (q.val + 512 * (t.val / 51)) := by
  unfold tile
  rw [(acc_idx_facts t).2.2.2.2.2.2.2.2]
  refine Finset.sum_congr rfl fun t' _ => ?_
  rw [blk0_apply, blk1_apply, blk2_apply]

/-- The accumulator after point `n = 51·h + r`: the contributions of tiles `0 … r` to column half `h`. -/
theorem acc_eq (c : Dev nD) : ∀ (n : ℕ) (hn : n < cfg0.N) (p : Fin 1024) (q : Fin 512),
    (outsAt0 V c n hn).2 (ix2 p q) = ∑ r' ∈ Finset.range (n % 51 + 1), tile V c r' p (q.val + 512 * (n / 51)) := by
  intro n
  induction n using Nat.strong_induction_on with
  | _ n ih =>
    intro hn p q
    have hN : n < 102 := lt_of_lt_of_eq hn (show cfg0.N = 102 from N_0)
    by_cases h0 : n % 51 = 0
    · have h1 : ¬n % 51 = 50 := by omega
      rw [outsAt0_A V c ⟨n, hn⟩ h0 h1]
      dsimp only
      refine (congrFun (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (blk0 V c ⟨n, hn⟩) (blk1 V c ⟨n, hn⟩) (blk2 V c ⟨n, hn⟩)) (ix2 p q)).trans ?_
      refine (pay2_apply (grid0.coords ⟨n, hn⟩) (blk0 V c ⟨n, hn⟩) (blk2 V c ⟨n, hn⟩) (blk1 V c ⟨n, hn⟩) (k0_pay1 (F := Ideal)) p q).trans ?_
      rw [pay1_apply, zero_add, blocks_sum V c ⟨n, hn⟩ p q, h0, Finset.sum_range_one]
    · have hpos : n ≠ 0 := fun e => h0 (by rw [e])
      have hprev : n - 1 < cfg0.N := Nat.lt_of_le_of_lt (Nat.sub_le _ _) hn
      have hacc := ih (n - 1) (by omega) hprev p q
      have hm : (n - 1) % 51 + 1 = n % 51 := by omega
      have hd : (n - 1) / 51 = n / 51 := by omega
      rw [hm, hd] at hacc
      by_cases h1 : n % 51 = 50
      · rw [outsAt0_C V c ⟨n, hn⟩ h0 h1]
        dsimp only
        refine (congrFun (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1) (blk0 V c ⟨n, hn⟩) (blk1 V c ⟨n, hn⟩) (blk2 V c ⟨n, hn⟩) (outsAt0 V c (n - 1) hprev).2) (ix2 p q)).trans ?_
        refine (pay2_apply (grid0.coords ⟨n, hn⟩) (blk0 V c ⟨n, hn⟩) (blk2 V c ⟨n, hn⟩) (blk1 V c ⟨n, hn⟩) (outsAt0 V c (n - 1) hprev).2 p q).trans ?_
        rw [hacc, blocks_sum V c ⟨n, hn⟩ p q, Finset.sum_range_succ]
      · rw [outsAt0_B V c ⟨n, hn⟩ h0 h1]
        dsimp only
        refine (congrFun (sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h)) (blk0 V c ⟨n, hn⟩) (blk1 V c ⟨n, hn⟩) (blk2 V c ⟨n, hn⟩) (outsAt0 V c (n - 1) hprev).2) (ix2 p q)).trans ?_
        refine (pay2_apply (grid0.coords ⟨n, hn⟩) (blk0 V c ⟨n, hn⟩) (blk2 V c ⟨n, hn⟩) (blk1 V c ⟨n, hn⟩) (outsAt0 V c (n - 1) hprev).2 p q).trans ?_
        rw [hacc, blocks_sum V c ⟨n, hn⟩ p q, Finset.sum_range_succ]

/-- The accumulator after point `t = 51·h + r`, entry `(p, q)`: tiles `0 … r`'s contributions to column `q + 512·h`. -/
theorem acc_at (c : Dev nD) (t : Fin cfg0.N) (p : Fin 1024) (q : Fin 512) :
    (outsAt0 V c t.val t.isLt).2 (ix2 p q)
      = ∑ r' ∈ Finset.range (t.val % 51 + 1), tile V c r' p (q.val + 512 * (t.val / 51)) :=
  acc_eq V c t.val t.isLt p q

/-- At the last tile of column half `h` the accumulator holds the whole sum over the 51 tiles. -/
theorem acc_last (c : Dev nD) (h : Fin 2) (hlt : 51 * h.val + 50 < cfg0.N) (p : Fin 1024) (q : Fin 512) :
    (outsAt0 V c (51 * h.val + 50) hlt).2 (ix2 p q)
      = ∑ r : Fin 51, ∑ t' : Fin 1024,
          (Cert.Spec.oh (iinA V c (ix2 0 (Cert.Spec.kk r t'))) p.val * wgtA V c (ix2 0 (Cert.Spec.kk r t')))
            * Cert.Spec.oh (ioutA V c (ix2 (Cert.Spec.kk r t') 0)) (q.val + 512 * h.val) := by
  rw [acc_eq V c (51 * h.val + 50) hlt p q]
  have e1 : (51 * h.val + 50) % 51 + 1 = 51 := by omega
  have e2 : (51 * h.val + 50) / 51 = h.val := by omega
  rw [e1, e2, Finset.sum_range]
  refine Finset.sum_congr rfl fun r _ => ?_
  unfold tile
  refine Finset.sum_congr rfl fun t' _ => ?_
  rw [kkN_eq]

end Cert.KernelIdeal.Val0

end
-- ==== Proof.Val0Flush.lean ====
/-
  From the accumulator to the dense matrix. The output array of the first call is written back only at the last tile of each
  column half h (the point 51·h + 50), and what is written there is the block of columns 512·h … 512·h + 511, holding the cast
  of the accumulator as that point leaves it — at the ideal values the accumulator itself. The two blocks cover the array, so
  entry (i, j) of the array is the accumulator of half j / 512 at (i, j mod 512).
-/
import proofs.«402548_j23965917512071_3_alg».proof.Proof.FrameKernelIdeal.Frame0
import proofs.«402548_j23965917512071_3_alg».proof.Proof.Val0Pieces
import Idealize.ShloMosaic.Lib.ValueIdx
import Idealize.ShloMosaic.Lib.Pipeline.Value

/-!
  Region 0, the last step: from the accumulator at the two last tiles to the output array after the region.

  The region's grid is 2 × 51, point t = 51·h + r. The output array (1024 × 1024) is written in two blocks of all 1024
  rows by 512 columns, block h holding columns 512·h … 512·h + 511, and block h is written back once, at the last tile
  t = 51·h + 50 of its half; there the body stores the accumulator, cast to the output's format, over the whole block.
  At the ideal values the cast is the identity, so the block written back is the accumulator as that point leaves it.
  The two blocks cover the array, so after the region the array holds, at (i, j), half j / 512's final accumulator at
  (i, j mod 512).
-/

set_option maxRecDepth 16384

noncomputable section

namespace Cert.KernelIdeal.Val0

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.KernelIdeal.Hand

-- the TensorCore's buffer contents when the region is entered
variable (V : (c : Dev nD) → (b : Ref sig .tc) → Buf (Elt Ideal) ((c : Thread nD τ).loc b))

/-! ## The stored block is the accumulator -/

/-- At a last tile the output block's staging buffer holds what the accumulator holds after the same point: the body
    stores the accumulator cast to the output's format, and at the ideal values the cast is the identity. -/
theorem out_C_eq (c : Dev nD) (t : Fin cfg0.N) (h0 : ¬ t.val % 51 = 0) (h1 : t.val % 51 = 50) :
    (Hand.outsAt0 (F := Ideal) V c t.val t.isLt).1 = (Hand.outsAt0 (F := Ideal) V c t.val t.isLt).2 := by
  rw [Hand.outsAt0_C V c t h0 h1]
  dsimp only
  rw [out_C, sout_C]
  unfold k0_pay3
  rfl

/-- The recursion's value at a position does not depend on how the position is written. -/
theorem outsAt0_congr (c : Dev nD) (n n' : ℕ) (hn : n < cfg0.N) (hn' : n' < cfg0.N) (e : n = n') :
    Hand.outsAt0 (F := Ideal) V c n hn = Hand.outsAt0 (F := Ideal) V c n' hn' := by
  subst e; rfl

/-! ## Where the output's blocks lie -/

/-- The output window's block index at point t = 51·h + r is (0, h): all 1024 rows, column half h. -/
theorem idx_facts3 : ∀ t : Fin cfg0.N, win0_3.index t (0 : Fin 2) = 0 ∧ win0_3.index t (1 : Fin 2) = t.val / 51 :=
  (by decide +kernel : ∀ t : Fin grid0.N, win0_3.index t (0 : Fin 2) = 0 ∧ win0_3.index t (1 : Fin 2) = t.val / 51)

/-- An index of the array is in point t's block iff each coordinate is in the block's range on its axis. -/
theorem mem_blk3 (t : Fin cfg0.N) (i : S1024x1024.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v3).slice (win0_3.rect t)).set ↔ _
  rw [View.set_slice_whole, Rect.mem_set_unit]
  exact Iff.rfl

/-- Every index of the array lies in the block written back at the last tile of its column half:
    column j is in half j / 512, written back at point 51·(j / 512) + 50. -/
theorem cover3 (i : S1024x1024.Idx) :
    ∃ t : Fin cfg0.N, (cfg0.win 3).flush t = true ∧ i ∈ ((cfg0.win 3).blk t).view.set := by
  have hi0 : (i 0).val < 1024 := idx2_lt0 i
  have hi1 : (i 1).val < 1024 := idx2_lt1 i
  have ht : 51 * ((i 1).val / 512) + 50 < cfg0.N := by rw [show cfg0.N = 102 from N_0]; omega
  obtain ⟨e0, e1⟩ := idx_facts3 ⟨51 * ((i 1).val / 512) + 50, ht⟩
  have e1' : win0_3.index ⟨51 * ((i 1).val / 512) + 50, ht⟩ (1 : Fin 2) = (i 1).val / 512 := by
    rw [e1]; show (51 * ((i 1).val / 512) + 50) / 51 = (i 1).val / 512; omega
  refine ⟨⟨51 * ((i 1).val / 512) + 50, ht⟩, (flush0_3 _).mpr (by show (51 * ((i 1).val / 512) + 50) % 51 = 50; omega), ?_⟩
  rw [mem_blk3]
  intro a
  match a with
  | ⟨0, _⟩ =>
    show win0_3.index ⟨51 * ((i 1).val / 512) + 50, ht⟩ (0 : Fin 2) * 1024 ≤ (i 0).val
      ∧ (i 0).val < win0_3.index ⟨51 * ((i 1).val / 512) + 50, ht⟩ (0 : Fin 2) * 1024 + 1024
    omega
  | ⟨1, _⟩ =>
    show win0_3.index ⟨51 * ((i 1).val / 512) + 50, ht⟩ (1 : Fin 2) * 512 ≤ (i 1).val
      ∧ (i 1).val < win0_3.index ⟨51 * ((i 1).val / 512) + 50, ht⟩ (1 : Fin 2) * 512 + 512
    omega

/-! ## From the two halves' accumulators to the array -/

/-- The array the two halves' accumulators assemble to: column j is column j mod 512 of half j / 512. -/
def assembled (Acc : Fin 2 → Fin 1024 → Fin 512 → EReal) : S1024x1024.Idx → EReal :=
  fun y => Acc ⟨(y 1).val / 512, by have := idx2_lt1 y; omega⟩ ⟨(y 0).val, idx2_lt0 y⟩ ⟨(y 1).val % 512, Nat.mod_lt _ (by decide)⟩

/-- The accumulators' entries depend on the coordinates' values only. -/
theorem acc_congr (Acc : Fin 2 → Fin 1024 → Fin 512 → EReal) {h h' : Fin 2} {p p' : Fin 1024} {q q' : Fin 512}
    (eh : h.val = h'.val) (ep : p.val = p'.val) (eq : q.val = q'.val) : Acc h p q = Acc h' p' q' := by
  obtain rfl := Fin.ext eh; obtain rfl := Fin.ext ep; obtain rfl := Fin.ext eq; rfl

/-- What a last tile writes back is its block of the assembled array: at point 51·h + 50 the block is all rows of
    columns 512·h … 512·h + 511, and the staging buffer holds half h's accumulator. -/
theorem flushed_eq (c : Dev nD) (Acc : Fin 2 → Fin 1024 → Fin 512 → EReal)
    (hacc : ∀ (h : Fin 2) (p : Fin 1024) (q : Fin 512),
      (Hand.outsAt0 (F := Ideal) V c (51 * h.val + 50) (by rw [show cfg0.N = 102 from N_0]; omega)).2 (ix2 p q) = Acc h p q)
    (t : Fin cfg0.N) (hf : (cfg0.win 3).flush t = true) :
    (Hand.dat0 (F := Ideal) V c).flushed 3 t = ((cfg0.win 3).blk t).view.read (Elt Ideal) (assembled Acc) := by
  have h1 : t.val % 51 = 50 := (flush0_3 t).mp hf
  have h0 : ¬ t.val % 51 = 0 := by omega
  have hN : t.val < 102 := lt_of_lt_of_eq t.isLt (show cfg0.N = 102 from N_0)
  obtain ⟨e0, e1⟩ := idx_facts3 t
  show (cfg0.win 3).cut (grid0.coords t) ((Hand.dat0 (F := Ideal) V c).after 3 t) = _
  rw [Hand.after0_3, out_C_eq V c t h0 h1]
  funext y
  have hy0 : (y 0).val < 1024 := (y 0).isLt
  have hy1 : (y 1).val < 512 := (y 1).isLt
  show (Hand.outsAt0 (F := Ideal) V c t.val t.isLt).2 ((cfg0.win 3).xinj (grid0.coords t) y)
    = assembled Acc (((cfg0.win 3).blk t).view.emb y)
  have hx : ((cfg0.win 3).xinj (grid0.coords t) y : S1024x512.Idx)
      = ix2 (⟨(y 0).val, hy0⟩ : Fin 1024) (⟨(y 1).val, hy1⟩ : Fin 512) :=
    funext fun a => match a with | ⟨0, _⟩ => rfl | ⟨1, _⟩ => rfl
  refine (congrArg (Hand.outsAt0 (F := Ideal) V c t.val t.isLt).2 hx).trans ?_
  rw [outsAt0_congr V c t.val (51 * (t.val / 51) + 50) t.isLt (by have hNN : cfg0.N = 102 := N_0; omega) (by omega)]
  refine (hacc ⟨t.val / 51, by omega⟩ ⟨(y 0).val, hy0⟩ ⟨(y 1).val, hy1⟩).trans ?_
  have m0 : ((((cfg0.win 3).blk t).view.emb y) 0).val = (y 0).val := by
    show win0_3.index t (0 : Fin 2) * 1024 + 1 * (y 0).val = (y 0).val; omega
  have m1 : ((((cfg0.win 3).blk t).view.emb y) 1).val = (t.val / 51) * 512 + (y 1).val := by
    show win0_3.index t (1 : Fin 2) * 512 + 1 * (y 1).val = (t.val / 51) * 512 + (y 1).val; omega
  unfold assembled
  exact acc_congr Acc (by show t.val / 51 = ((((cfg0.win 3).blk t).view.emb y) 1).val / 512; rw [m1]; omega)
    (by show (y 0).val = ((((cfg0.win 3).blk t).view.emb y) 0).val; rw [m0])
    (by show (y 1).val = ((((cfg0.win 3).blk t).view.emb y) 1).val % 512; rw [m1]; omega)

/-- After the region the output array holds, at (i, j), half j / 512's accumulator (as its last tile leaves it) at
    (i, j mod 512): the two last tiles' blocks cover the array and each is written back once. -/
theorem arrAt_of_acc (c : Dev nD) (Acc : Fin 2 → Fin 1024 → Fin 512 → EReal)
    (hacc : ∀ (h : Fin 2) (p : Fin 1024) (q : Fin 512),
      (Hand.outsAt0 (F := Ideal) V c (51 * h.val + 50) (by rw [show cfg0.N = 102 from N_0]; omega)).2 (ix2 p q) = Acc h p q)
    (i j : Fin 1024) :
    (Hand.dat0 (F := Ideal) V c).arrAt 3 cfg0.N (ix2 i j)
      = Acc ⟨j.val / 512, by have := j.isLt; omega⟩ i ⟨j.val % 512, Nat.mod_lt _ (by decide)⟩ := by
  have hfin : (Hand.dat0 (F := Ideal) V c).arrAt 3 cfg0.N = assembled Acc :=
    (Hand.dat0 (F := Ideal) V c).arrAt_eq_of_cover 3 (assembled Acc) (fun t hf => flushed_eq V c Acc hacc t hf) cover3
  rw [hfin]
  rfl

end Cert.KernelIdeal.Val0

end
-- ==== Proof.Val1.lean ====
/-
  The second call's result at the ideal values: point t of its grid multiplies rows 1024·t … 1024·t + 1023 of the input with
  the whole dense matrix and adds the bias row; the matrix product onto a zero accumulator is the plain sum over the contracted
  index and the roundings are the identity, so the block is (∑ i, a b i · D i j) + bias j at its rows, and the four blocks
  cover the output array.
-/
import proofs.«402548_j23965917512071_3_alg».proof.Proof.FrameKernelIdeal.Frame1
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The dimension-number record of the body's one contraction: rows × inner times inner × columns. -/
abbrev DD : DotDims S1024x1024 S1024x1024 S1024x1024 := dot_S1024x1024_S1024x1024_S1024x1024_1_0_0_1_n_n

theorem lhs_DD_0 (j : S1024x1024.Idx) (k : DD.contr.Idx) : (DD.lhsIdx j k 0 : ℕ) = j 0 := by
  simp [DotDims.lhsIdx, DD, dot_S1024x1024_S1024x1024_S1024x1024_1_0_0_1_n_n]; rfl
theorem lhs_DD_1 (j : S1024x1024.Idx) (k : DD.contr.Idx) : (DD.lhsIdx j k 1 : ℕ) = k ⟨0, by decide⟩ :=
  DD.lhsIdx_val_of_single (cl := 1) rfl j k
theorem rhs_DD_0 (j : S1024x1024.Idx) (k : DD.contr.Idx) : (DD.rhsIdx j k 0 : ℕ) = k ⟨0, by decide⟩ :=
  DD.rhsIdx_val_of_single (cr := 0) rfl j k
theorem rhs_DD_1 (j : S1024x1024.Idx) (k : DD.contr.Idx) : (DD.rhsIdx j k 1 : ℕ) = j 1 := by
  simp [DotDims.rhsIdx, DD, dot_S1024x1024_S1024x1024_S1024x1024_1_0_0_1_n_n]; rfl

/-- The body's payload at row `p`, column `q`: the inner product of the left block's row and the right operand's
    column, plus the bias at the column. -/
theorem pay_apply (x0 : Vec Ideal S1024x1024 .f32) (x1 : Vec Ideal S1024x1024 .bf16) (x2 : Vec Ideal S1024 .f32)
    (p q : Fin 1024) :
    k1_pay1 (F := Ideal) x0 x1 x2 (ix2 p q) = (∑ k : Fin 1024, x0 (ix2 p k) * x1 (ix2 k q)) + x2 (ix1 q) := by
  unfold k1_pay1
  rw [addf_apply]
  congr 1
  · simp only [matmul]
    rw [Ideal.matmul_constant_zero_apply, ← Equiv.sum_comp (contrEquiv1 DD 1024 rfl rfl).symm]
    refine Finset.sum_congr rfl fun k _ => ?_
    rw [truncf_apply, shapeCast_self]
    have hl : DD.lhsIdx (ix2 p q) ((contrEquiv1 DD 1024 rfl rfl).symm k) = ix2 p k := by
      funext a; apply Fin.ext
      match a with
      | ⟨0, _⟩ => exact lhs_DD_0 _ _
      | ⟨1, _⟩ => exact (lhs_DD_1 _ _).trans (contrEquiv1_symm_val DD 1024 rfl rfl k)
    have hr : DD.rhsIdx (ix2 p q) ((contrEquiv1 DD 1024 rfl rfl).symm k) = ix2 k q := by
      funext a; apply Fin.ext
      match a with
      | ⟨0, _⟩ => exact (rhs_DD_0 _ _).trans (contrEquiv1_symm_val DD 1024 rfl rfl k)
      | ⟨1, _⟩ => exact rhs_DD_1 _ _
    rw [hl, hr]
  · rw [broadcastTo_1b_ab_apply, shapeCast_a_1a_apply]

/-! ## From blocks to the array -/

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the output array ends holding: at row `r`, column `s` the inner product of the left operand's row `r` and
    the right operand's column `s`, plus the bias at `s`. -/
def G (a : S4096x1024.Idx → Elt Ideal .f32) (w : S1024x1024.Idx → Elt Ideal .bf16) (bias : S1024.Idx → Elt Ideal .f32) :
    S4096x1024.Idx → Elt Ideal .f32 :=
  fun i => (∑ k : Fin 1024, a (ix2 (i 0) k) * w (ix2 k (i 1))) + bias (ix1 (i 1))

/-- The printed index maps, decided over the four grid points: the left operand's row block moves with the output's,
    the right operand and the bias stay whole, and the output's row block at point `t` is block `t`. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- Every row block is some point's. -/
theorem idx_onto : ∀ q0 : Fin 4, ∃ t : Fin cfg1.N, win1_3.index t = ![q0.val, 0] :=
  (by decide +kernel : ∀ q0 : Fin 4, ∃ t : Fin grid1.N, win1_3.index t = ![q0.val, 0])

/-- What point `t` writes back is block `t` of `G` of the arrays as the region finds them. -/
theorem flushed_eq (c : Dev nD) (t : Fin cfg1.N) :
    (Hand.dat1 (F := Ideal) V c).flushed 3 t
      = ((cfg1.win 3).blk t).view.read (Elt Ideal) (G (V c main_arg0) (V c main_v3) (V c main_arg2)) := by
  show (cfg1.win 3).cut (grid1.coords t) ((Hand.dat1 (F := Ideal) V c).after 3 t) = _
  rw [Hand.after1_3]
  unfold Hand.out1_3
  rw [View.canon_unit_zero hz2]
  simp only [View.ld_unit_zero (S := S1024x1024) hz2, View.ld_unit_zero (S := S1024) hz1]
  funext j
  obtain ⟨p, q, rfl⟩ : ∃ (p : Fin 1024) (q : Fin 1024), j = ix2 p q := ⟨j 0, j 1, eq_ix2 j⟩
  show k1_pay1 (F := Ideal) (Hand.iblk1 V c 0 t) (Hand.iblk1 V c 1 t) (Hand.iblk1 V c 2 t) (ix2 p q)
      = G (V c main_arg0) (V c main_v3) (V c main_arg2) (((cfg1.win 3).blk t).view.emb (ix2 p q))
  rw [pay_apply]
  obtain ⟨e0, e1, e2, e3, e4, e5, e6⟩ := idx_facts t
  have h0 : ∀ k : Fin 1024, ((cfg1.win 0).blk t).view.emb (ix2 p k)
      = ix2 ((((cfg1.win 3).blk t).view.emb (ix2 p q)) 0) k := fun k => by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * k.val = k.val; omega
  have h1 : ∀ k : Fin 1024, ((cfg1.win 1).blk t).view.emb (ix2 k q)
      = ix2 k ((((cfg1.win 3).blk t).view.emb (ix2 p q)) 1) := fun k => by
    funext a; apply Fin.ext
    match a with
    | ⟨0, _⟩ => show win1_1.index t (0 : Fin 2) * 1024 + 1 * k.val = k.val; omega
    | ⟨1, _⟩ => show win1_1.index t (1 : Fin 2) * 1024 + 1 * q.val = win1_3.index t (1 : Fin 2) * 1024 + 1 * q.val; omega
  have h2 : ((cfg1.win 2).blk t).view.emb (ix1 q) = ix1 ((((cfg1.win 3).blk t).view.emb (ix2 p q)) 1) := by
    funext a; apply Fin.ext
    match a with
    | ⟨0, _⟩ => show win1_2.index t (0 : Fin 1) * 1024 + 1 * q.val = win1_3.index t (1 : Fin 2) * 1024 + 1 * q.val; omega
  unfold G
  congr 1
  · refine Finset.sum_congr rfl fun k _ => ?_
    exact congrArg₂ (fun (x : Elt Ideal .f32) (y : Elt Ideal .bf16) => x * y)
      (congrArg (V c main_arg0 : S4096x1024.Idx → Elt Ideal .f32) (h0 k))
      (congrArg (V c main_v3 : S1024x1024.Idx → Elt Ideal .bf16) (h1 k))
  · exact congrArg (V c main_arg2 : S1024.Idx → Elt Ideal .f32) h2

/-- An index of the output array is in point `t`'s block iff each coordinate is in the block's range on its axis. -/
theorem mem_blk (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v4).slice (win1_3.rect t)).set ↔ _
  rw [View.set_slice_whole, Rect.mem_set_unit]
  exact Iff.rfl

/-- The four row blocks tile the output array: row `r` is in the block of point `r / 1024`. -/
theorem cover (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after all four write-backs is `G` of the arrays as the region finds them. -/
theorem final (c : Dev nD) :
    (Hand.dat1 (F := Ideal) V c).arrAt 3 cfg1.N = G (V c main_arg0) (V c main_v3) (V c main_arg2) :=
  (Hand.dat1 (F := Ideal) V c).arrAt_eq_of_cover 3 (G (V c main_arg0) (V c main_v3) (V c main_arg2))
    (fun t _ => flushed_eq V c t) cover

/-- `G` at row `b`, column `j`, written out. -/
theorem G_apply (a : S4096x1024.Idx → Elt Ideal .f32) (w : S1024x1024.Idx → Elt Ideal .bf16) (bias : S1024.Idx → Elt Ideal .f32)
    (b : Fin 4096) (j : Fin 1024) :
    G a w bias (ix2 b j) = (∑ i : Fin 1024, a (ix2 b i) * w (ix2 i j)) + bias (ix1 j) := rfl

/-- The value of region 1: the output array at row `b`, column `j` is the inner product of the left operand's row `b`
    and the right operand's column `j`, plus the bias at `j` (`G_apply` writes the right side out). -/
theorem arrAt_out (c : Dev nD) (b : Fin 4096) (j : Fin 1024) :
    (Hand.dat1 (F := Ideal) V c).arrAt 3 cfg1.N (ix2 b j)
      = G (V c main_arg0) (V c main_v3) (V c main_arg2) (ix2 b j) := by
  rw [final]

/-- The same with the three arrays named: whatever the region-entry contents of the left operand, the right operand
    and the bias are known to be (`hA`, `hW`, `hB`), the output array at row `b`, column `j` is the inner product of
    row `b` of the first and column `j` of the second, plus the third at `j`. -/
theorem arrAt_out_of (c : Dev nD) (A : S4096x1024.Idx → Elt Ideal .f32) (W : S1024x1024.Idx → Elt Ideal .bf16)
    (B : S1024.Idx → Elt Ideal .f32) (hA : V c main_arg0 = A) (hW : V c main_v3 = W) (hB : V c main_arg2 = B)
    (b : Fin 4096) (j : Fin 1024) :
    (Hand.dat1 (F := Ideal) V c).arrAt 3 cfg1.N (ix2 b j)
      = (∑ i : Fin 1024, A (ix2 b i) * W (ix2 i j)) + B (ix1 j) := by
  subst hA hW hB
  rw [final]
  rfl

end Cert.KernelIdeal.Val1

end
-- ==== Proof.SpecMath.lean ====
/-
  The dense-matrix form of the layer equals its index-by-index form.

  All entries of a and w are real numbers, so inside the sums every term is the image of a real number and the
  computation may be done in ℝ: distribute a b i over the sum defining D i j, exchange the sum over the columns i
  with the sum over the nonzeros k, and observe that for a fixed nonzero k the indicator [iin k = i] leaves the
  single column i = iin k. The nonzeros are numbered k = 1024·r + t, which is a bijection from pairs (r, t) onto
  the 52224 nonzeros, so the tile-by-tile double sum is the sum over all k.
-/
import proofs.«402548_j23965917512071_3_alg».proof.Proof.SpecDefs
import Mathlib.Data.EReal.Basic
import Mathlib.Algebra.BigOperators.Group.Finset.Basic
import Mathlib.Algebra.BigOperators.Ring.Finset
import Mathlib.Data.Fintype.BigOperators

noncomputable section

open scoped BigOperators

namespace Cert.Spec

open Idealize.ShloMosaic Idealize.ShloMosaic.ValueIdx

/-- The image in the extended reals of a finite sum of real numbers is the sum of the images. -/
theorem coe_sum {ι : Type*} (s : Finset ι) (f : ι → ℝ) :
    ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The image of a case distinction is the case distinction of the images. -/
theorem coe_ite (p : Prop) [Decidable p] (x y : ℝ) :
    ((if p then x else y : ℝ) : EReal) = if p then (x : EReal) else (y : EReal) := by
  split_ifs <;> rfl

/-- Numbering the nonzeros tile by tile, k = 1024·r + t, is a bijection: r = k / 1024 and t = k % 1024. -/
def kkEquiv : Fin 51 × Fin 1024 ≃ Fin 52224 where
  toFun p := kk p.1 p.2
  invFun k := (⟨k.val / 1024, by have := k.isLt; omega⟩, ⟨k.val % 1024, Nat.mod_lt _ (by decide)⟩)
  left_inv p := by
    rcases p with ⟨r, t⟩
    have hr := r.isLt
    have ht := t.isLt
    refine Prod.ext (Fin.ext ?_) (Fin.ext ?_)
    · show (1024 * r.val + t.val) / 1024 = r.val
      omega
    · show (1024 * r.val + t.val) % 1024 = t.val
      omega
  right_inv k := by
    refine Fin.ext ?_
    show 1024 * (k.val / 1024) + k.val % 1024 = k.val
    omega

/-- A sum taken tile by tile, and within a tile nonzero by nonzero, is the sum over all nonzeros. -/
theorem sum_kk {M : Type*} [AddCommMonoid M] (f : Fin 52224 → M) :
    ∑ r : Fin 51, ∑ t : Fin 1024, f (kk r t) = ∑ k : Fin 52224, f k := by
  rw [← Equiv.sum_comp kkEquiv f, Fintype.sum_prod_type]
  rfl

/-- The identity over the real numbers, for index words already read as natural numbers. -/
theorem real_core (ar : Fin 1024 → ℝ) (wr : Fin 52224 → ℝ) (xin xout : Fin 52224 → ℕ)
    (hin : ∀ k, xin k < 1024) (j : ℕ) :
    ∑ i : Fin 1024, ar i * ∑ r : Fin 51, ∑ t : Fin 1024,
        ((if xin (kk r t) = i.val then (1 : ℝ) else 0) * wr (kk r t)) * (if xout (kk r t) = j then (1 : ℝ) else 0)
      = ∑ k : Fin 52224, if xout k = j then ar ⟨xin k % 1024, Nat.mod_lt _ (by decide)⟩ * wr k else 0 := by
  calc ∑ i : Fin 1024, ar i * ∑ r : Fin 51, ∑ t : Fin 1024,
          ((if xin (kk r t) = i.val then (1 : ℝ) else 0) * wr (kk r t)) * (if xout (kk r t) = j then (1 : ℝ) else 0)
      = ∑ i : Fin 1024, ar i * ∑ k : Fin 52224,
          ((if xin k = i.val then (1 : ℝ) else 0) * wr k) * (if xout k = j then (1 : ℝ) else 0) := by
        refine Finset.sum_congr rfl fun i _ => ?_
        rw [sum_kk (fun k => ((if xin k = i.val then (1 : ℝ) else 0) * wr k) * (if xout k = j then (1 : ℝ) else 0))]
    _ = ∑ i : Fin 1024, ∑ k : Fin 52224,
          ar i * (((if xin k = i.val then (1 : ℝ) else 0) * wr k) * (if xout k = j then (1 : ℝ) else 0)) := by
        refine Finset.sum_congr rfl fun i _ => ?_
        rw [Finset.mul_sum]
    _ = ∑ k : Fin 52224, ∑ i : Fin 1024,
          ar i * (((if xin k = i.val then (1 : ℝ) else 0) * wr k) * (if xout k = j then (1 : ℝ) else 0)) :=
        Finset.sum_comm
    _ = ∑ k : Fin 52224, if xout k = j then ar ⟨xin k % 1024, Nat.mod_lt _ (by decide)⟩ * wr k else 0 := by
        refine Finset.sum_congr rfl fun k _ => ?_
        have hk : xin k % 1024 = xin k := Nat.mod_eq_of_lt (hin k)
        rw [Finset.sum_eq_single (⟨xin k % 1024, Nat.mod_lt _ (by decide)⟩ : Fin 1024)]
        · simp only [hk, if_true]
          split_ifs <;> ring
        · intro i _ hne
          have : xin k ≠ i.val := fun h => hne (Fin.ext (by show i.val = xin k % 1024; omega))
          rw [if_neg this]
          ring
        · intro h
          exact absurd (Finset.mem_univ _) h

/-- The result through the dense matrix is the layer's result. -/
theorem viaDense_eq_out (a : SA.Idx → EReal) (w : SK.Idx → EReal) (bias : SB.Idx → EReal) (iin iout : SK.Idx → BitVec 32)
    (ha : Fin_ a) (hw : Fin_ w) (hin : InRange iin) :
    viaDense a w bias iin iout = out a w bias iin iout := by
  choose ar har using ha
  choose wr hwr using hw
  funext y
  have key := congrArg (fun x : ℝ => (x : EReal))
    (real_core (fun i => ar (ix2 (y 0) i)) (fun k => wr (ix1 k)) (fun k => (iin (ix1 k)).toNat)
      (fun k => (iout (ix1 k)).toNat) (fun k => hin (ix1 k)) (y 1).val)
  simp only [coe_sum, coe_ite, EReal.coe_mul, EReal.coe_one, EReal.coe_zero] at key
  simp only [viaDense, out, dense, oh, har, hwr]
  rw [key]

end Cert.Spec

end
-- ==== Proof.Bridge.lean ====
/-
  The kernel program's result at the ideal instance is the layer's function of the arguments.
  The first call leaves in main_v3 the dense matrix D i j = ∑ over the 51 tiles r and the 1024 nonzeros t of a tile of
  [iin k = i] · w k · [iout k = j] (k = 1024·r + t): the accumulator after the last tile of column half h holds the sum over
  all tiles at the columns j = q + 512·h, and that is what the two flushed blocks put into the array. The three arrays the
  first call reads are the arguments laid out as one row or one column, so an entry (0, k) or (k, 0) is the argument's entry k.
  The second call leaves in main_v4 the product of the input with D plus the bias; under finite entries and in-range row ids
  that is the gather / scatter form.
-/
import proofs.«402548_j23965917512071_3_alg».proof.Proof.FrameKernelIdeal.Run
import proofs.«402548_j23965917512071_3_alg».proof.Proof.Val0Acc
import proofs.«402548_j23965917512071_3_alg».proof.Proof.Val0Flush
import proofs.«402548_j23965917512071_3_alg».proof.Proof.Val1
import proofs.«402548_j23965917512071_3_alg».proof.Proof.SpecMath

set_option maxRecDepth 16384

noncomputable section

namespace Cert.KernelIdeal.Bridge

open Idealize.ShloMosaic Idealize.ShloMosaic.TcCoe Idealize.SL.Sem
open Idealize.ShloMosaic.ValueIdx
open Cert.KernelIdeal Cert.KernelIdeal.Gen Cert.KernelIdeal.Hand

/-! ## The dense matrix after the first call, at any entry contents -/

section AtV
variable (V : (c : Dev nD) → (b : Ref sig .tc) → Buf (Elt Ideal) ((c : Thread nD τ).loc b))

/-- Entry (i, j) of main_v3 after the first call: the sum over all tiles and nonzeros, read off the three arrays the call reads. -/
theorem arrAt_dense (c : Dev nD) (i j : Fin 1024) :
    (dat0 (F := Ideal) V c).arrAt 3 cfg0.N (ix2 i j)
      = ∑ r : Fin 51, ∑ t : Fin 1024, (Cert.Spec.oh (Val0.iinA V c (ix2 0 (Cert.Spec.kk r t))) i.val * Val0.wgtA V c (ix2 0 (Cert.Spec.kk r t)))
          * Cert.Spec.oh (Val0.ioutA V c (ix2 (Cert.Spec.kk r t) 0)) j.val := by
  refine (Val0.arrAt_of_acc V c
    (fun h p q => ∑ r : Fin 51, ∑ t : Fin 1024, (Cert.Spec.oh (Val0.iinA V c (ix2 0 (Cert.Spec.kk r t))) p.val * Val0.wgtA V c (ix2 0 (Cert.Spec.kk r t)))
          * Cert.Spec.oh (Val0.ioutA V c (ix2 (Cert.Spec.kk r t) 0)) (q.val + 512 * h.val))
    (fun h p q => Val0.acc_last V c h _ p q) i j).trans ?_
  show (∑ r : Fin 51, ∑ t : Fin 1024, _ * Cert.Spec.oh _ (j.val % 512 + 512 * (j.val / 512))) = _
  rw [Nat.mod_add_div]

end AtV

/-! ## At the program's own boundaries -/

variable (m : (ℓ : Loc nD τ sig) → Buf (Elt Ideal) ℓ) (ρ : Dev nD → PrngReg)

/-- A vector of 52224 laid out as one row: entry (0, k) is the vector's entry k. -/
theorem row_at {α : Type} (x : S52224.Idx → α) (k : Fin 52224) :
    shapeCast S1x52224 x shapeCasts_S52224_S1x52224 (ix2 0 k) = x (ix1 k) :=
  shapeCast_apply x _ (ix2 0 k) (ix1 k) (by
    show (S52224.rowMajor (ix1 k)).val = (S1x52224.rowMajor (ix2 0 k)).val
    rw [Shape.rowMajor_val_one, Shape.rowMajor_val_two]; show k.val = 0 * 52224 + k.val; omega)
/-- A vector of 52224 laid out as one column: entry (k, 0) is the vector's entry k. -/
theorem col_at {α : Type} (x : S52224.Idx → α) (k : Fin 52224) :
    shapeCast S52224x1 x shapeCasts_S52224_S52224x1 (ix2 k 0) = x (ix1 k) :=
  shapeCast_apply x _ (ix2 k 0) (ix1 k) (by
    show (S52224.rowMajor (ix1 k)).val = (S52224x1.rowMajor (ix2 k 0)).val
    rw [Shape.rowMajor_val_one, Shape.rowMajor_val_two]; show k.val = k.val * 1 + 0; omega)

theorem v0_at (c : Dev nD) (k : Fin 52224) :
    Val0.iinA (V1 m ρ) c (ix2 0 k) = (m ((c : Thread nD τ).loc main_arg3) : S52224.Idx → BitVec 32) (ix1 k) := by
  show (V1 m ρ c main_v0 : S1x52224.Idx → BitVec 32) (ix2 0 k) = _
  rw [V1_main_v0]; exact row_at _ k
theorem v1_at (c : Dev nD) (k : Fin 52224) :
    Val0.wgtA (V1 m ρ) c (ix2 0 k) = (m ((c : Thread nD τ).loc main_arg1) : S52224.Idx → EReal) (ix1 k) := by
  show (V1 m ρ c main_v1 : S1x52224.Idx → EReal) (ix2 0 k) = _
  rw [V1_main_v1]; exact row_at _ k
theorem v2_at (c : Dev nD) (k : Fin 52224) :
    Val0.ioutA (V1 m ρ) c (ix2 k 0) = (m ((c : Thread nD τ).loc main_arg4) : S52224.Idx → BitVec 32) (ix1 k) := by
  show (V1 m ρ c main_v2 : S52224x1.Idx → BitVec 32) (ix2 k 0) = _
  rw [V1_main_v2]; exact col_at _ k

/-- The dense matrix read off the first call's three arrays is the dense matrix of the arguments. -/
theorem dense_sum_eq (c : Dev nD) (i j : Fin 1024) :
    (∑ r : Fin 51, ∑ t : Fin 1024, (Cert.Spec.oh (Val0.iinA (V1 m ρ) c (ix2 0 (Cert.Spec.kk r t))) i.val * Val0.wgtA (V1 m ρ) c (ix2 0 (Cert.Spec.kk r t)))
          * Cert.Spec.oh (Val0.ioutA (V1 m ρ) c (ix2 (Cert.Spec.kk r t) 0)) j.val : EReal)
      = Cert.Spec.dense (m ((c : Thread nD τ).loc main_arg1)) (m ((c : Thread nD τ).loc main_arg3)) (m ((c : Thread nD τ).loc main_arg4)) i j := by
  unfold Cert.Spec.dense
  refine Finset.sum_congr rfl fun r _ => Finset.sum_congr rfl fun t _ => ?_
  rw [v0_at m ρ c (Cert.Spec.kk r t), v1_at m ρ c (Cert.Spec.kk r t), v2_at m ρ c (Cert.Spec.kk r t)]

/-- What the second call finds in main_v3 is the dense matrix of the arguments. -/
theorem dense_at (c : Dev nD) (i j : Fin 1024) :
    (V2 m ρ c main_v3 : S1024x1024.Idx → EReal) (ix2 i j)
      = Cert.Spec.dense (m ((c : Thread nD τ).loc main_arg1)) (m ((c : Thread nD τ).loc main_arg3)) (m ((c : Thread nD τ).loc main_arg4)) i j :=
  have h1 : (V2 m ρ c main_v3 : S1024x1024.Idx → EReal) (ix2 i j) = (dat0 (F := Ideal) (V1 m ρ) c).arrAt 3 cfg0.N (ix2 i j) :=
    congrFun (V2_main_v3 m ρ c) (ix2 i j)
  h1.trans ((arrAt_dense (V1 m ρ) c i j).trans (dense_sum_eq m ρ c i j))

/-- THE KERNEL'S RESULT: with finite inputs and weights and in-range row ids, main_v4 ends at the layer's function of the arguments. -/
theorem kernel_out (c : Dev nD)
    (ha : Cert.Spec.Fin_ (s := Cert.Spec.SA) (m ((c : Thread nD τ).loc main_arg0)))
    (hw : Cert.Spec.Fin_ (s := Cert.Spec.SK) (m ((c : Thread nD τ).loc main_arg1)))
    (hin : Cert.Spec.InRange (m ((c : Thread nD τ).loc main_arg3))) :
    (dat1 (F := Ideal) (V2 m ρ) c).arrAt 3 cfg1.N
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) := by
  rw [← Cert.Spec.viaDense_eq_out _ _ _ _ _ ha hw hin]
  funext y
  obtain ⟨b, j, rfl⟩ : ∃ (b : Fin 4096) (j : Fin 1024), y = ix2 b j := ⟨y 0, y 1, eq_ix2 y⟩
  refine (Val1.arrAt_out_of (V2 m ρ) c (m ((c : Thread nD τ).loc main_arg0))
    (fun idx => Cert.Spec.dense (m ((c : Thread nD τ).loc main_arg1)) (m ((c : Thread nD τ).loc main_arg3)) (m ((c : Thread nD τ).loc main_arg4)) (idx 0) (idx 1))
    (m ((c : Thread nD τ).loc main_arg2)) (V2_main_arg0 m ρ c)
    (by funext idx
        obtain ⟨i, j', rfl⟩ : ∃ (i : Fin 1024) (j' : Fin 1024), idx = ix2 i j' := ⟨idx 0, idx 1, eq_ix2 idx⟩
        exact dense_at m ρ c i j')
    (V2_main_arg2 m ρ c) b j).trans ?_
  rfl

end Cert.KernelIdeal.Bridge

end
-- ==== Proof.PreRead.lean ====
/-
  The precondition read as facts about the arguments: each of the three float arrays passes "|x| < +∞ everywhere", so every
  entry is a real number; each id array passes "0 ≤ x everywhere" and "x < 1024 everywhere" as signed word comparisons, so
  every id word, read as a natural number, is below 1024.
-/
import proofs.«402548_j23965917512071_3_alg».proof.Pre_finite_inputs
import proofs.«402548_j23965917512071_3_alg».proof.Proof.Gen.Pre_finite_inputs
import proofs.«402548_j23965917512071_3_alg».proof.Proof.SpecDefs
import Idealize.ShloMosaic.Lib.ReduceAll
import Idealize.ShloMosaic.Lib.StableHlo.Predicate
import Idealize.ShloMosaic.PureOps.Ideal.Laws

/-!
  What the precondition says, read element by element.

  The precondition is a conjunction of seven "for all elements" tests, and-ed into one bit: the absolute value of every
  entry of the three float arrays is below +∞, and every index word of the two index arrays is, read as a signed
  integer, at least 0 and below 1024. If that bit is 1 then every float entry is a real number (an extended real whose
  absolute value max x (-x) is below +∞ is neither +∞ nor -∞), and every index word, read unsigned, is below 1024
  (a word that is non-negative as a signed integer reads the same signed and unsigned).
-/

noncomputable section

namespace Cert.PreRead

open Idealize.ShloMosaic Idealize.ShloMosaic.ValueIdx Cert.Pre_finite_inputs

/-- The scalar shape has one index. -/
instance : Subsingleton S_.Idx := ⟨fun _ _ => funext fun d => d.elim0⟩

/-- The word 0x7F800000 is +∞. -/
theorem inf_word : Ideal.ofBits .f32 0x7F800000#32 = (⊤ : EReal) := by
  simp [Ideal.ofBits, Ideal.ieee]

/-- An extended real whose absolute value max x (-x) tests below +∞ is a real number. -/
theorem real_of_abs_lt (x : EReal)
    (h : Ideal.cmp .olt (max x (-x)) (Ideal.ofBits .f32 0x7F800000#32) = 1#1) : ∃ r : ℝ, x = (r : EReal) := by
  rw [inf_word] at h
  have h' : max x (-x) < ⊤ := by
    by_contra hc
    simp [Ideal.cmp, hc] at h
  induction x using EReal.rec with
  | bot => simp at h'
  | coe r => exact ⟨r, rfl⟩
  | top => simp at h'

/-- A word that tests 0 ≤ x and x < 1024 as a signed integer is below 1024 read unsigned. -/
theorem toNat_lt_of_signed (x : BitVec 32) (h0 : IntOp.cmpi .sge x 0#32 = 1#1) (h1 : IntOp.cmpi .slt x 1024#32 = 1#1) :
    x.toNat < 1024 := by
  rw [IntOp.cmpi_sge, show (0#32 : BitVec 32).toInt = 0 from by decide] at h0
  rw [IntOp.cmpi_slt, show (1024#32 : BitVec 32).toInt = 1024 from by decide] at h1
  have hlt : 2 * x.toNat < 2 ^ 32 := BitVec.toInt_pos_iff.1 h0
  rw [BitVec.toInt_eq_toNat_of_lt hlt] at h1
  omega

/-- The precondition, read: the float arrays hold real numbers, the index arrays column numbers. -/
theorem read (a : FVec Ideal S4096x1024 .f32) (w : FVec Ideal S52224 .f32) (bias : FVec Ideal S1024 .f32)
    (iin iout : IVec S52224 32)
    (h : Cert.Pre_finite_inputs.fn (F := Ideal) a w bias iin iout = (fun _ => 1#1)) :
    Cert.Spec.Fin_ a ∧ Cert.Spec.Fin_ w ∧ Cert.Spec.Fin_ bias ∧ Cert.Spec.InRange iin ∧ Cert.Spec.InRange iout := by
  have h0 := congrFun h ix0
  dsimp only [fn, fn_part1] at h0
  obtain ⟨h25, h28⟩ := IntOp.andi_eq_one.1 h0
  obtain ⟨h21, h24⟩ := IntOp.andi_eq_one.1 h25
  obtain ⟨h17, h20⟩ := IntOp.andi_eq_one.1 h21
  obtain ⟨h13, h16⟩ := IntOp.andi_eq_one.1 h17
  obtain ⟨h8, h12⟩ := IntOp.andi_eq_one.1 h13
  obtain ⟨h3, h7⟩ := IntOp.andi_eq_one.1 h8
  refine ⟨fun i => ?_, fun i => ?_, fun i => ?_, fun k => ?_, fun k => ?_⟩
  · exact real_of_abs_lt (a i) (Host.reduce_andi_all _ _ _ _ _ h3 i)
  · exact real_of_abs_lt (w i) (Host.reduce_andi_all _ _ _ _ _ h7 i)
  · exact real_of_abs_lt (bias i) (Host.reduce_andi_all _ _ _ _ _ h12 i)
  · exact toNat_lt_of_signed (iin k) (Host.reduce_andi_all _ _ _ _ _ h16 k) (Host.reduce_andi_all _ _ _ _ _ h20 k)
  · exact toNat_lt_of_signed (iout k) (Host.reduce_andi_all _ _ _ _ _ h24 k) (Host.reduce_andi_all _ _ _ _ _ h28 k)

end Cert.PreRead

end
-- ==== Proof.RefSide.lean ====
/-
  The reference's result as the layer's function. With every id in [0, 1024) the numpy-style wrap of negative ids is the
  identity, the gather's clamp of its start index is the identity, and every scatter index lands inside the operand; so the
  gathered-and-scaled array is input b (row id k) · weight k at (b, k), the scatter-add into zeros puts at (b, j) the sum of
  those over the nonzeros k whose column id is j, and the bias row is added.
-/
import proofs.«402548_j23965917512071_3_alg».proof.Defs
import proofs.«402548_j23965917512071_3_alg».proof.Proof.Gen.ReferenceIdeal
import proofs.«402548_j23965917512071_3_alg».proof.Proof.Gen.ReferenceIdeal.Run
import proofs.«402548_j23965917512071_3_alg».proof.Proof.Gen.ReferenceIdeal.Read
import proofs.«402548_j23965917512071_3_alg».proof.Proof.SpecDefs
import Idealize.ShloMosaic.Lib.StableHlo.Predicate
import Idealize.ShloMosaic.PureOps.Ideal.Laws

/-!
  The reference side: what the reference program computes, index by index, when every index word is a column number.

  The reference wraps each index word (a negative word gets 1024 added), gathers the columns of `a` that
  the wrapped input indices name into a [4096 × 52224] array, multiplies column k by the weight w k, and adds column k
  into column (iout k) of a [4096 × 1024] array of zeros; last it adds the bias along the rows. When every index word,
  read unsigned, is below 1024:

  * the wrap changes nothing (such a word is not negative as a signed integer);
  * the gather's clamp of a start index into [0, 1023] changes nothing, so gathered column k is column (iin k) of `a`;
  * every update lands inside the array: update (b', k) lands on element (b', iout k). So the updates that land on
    element (b, j) are the (b, k) with iout k = j, and the sum over them is the sum over all k of
    "a b (iin k) · w k if iout k = j, else 0";
  * the array the updates are added into is zero, and 0 + x = x.

  That is `Cert.Spec.out`. The sums are sums of extended reals; only commutativity and associativity of + are used, so
  nothing here needs the entries to be finite.
-/

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx

/-! ## The gather and the scatter at an index -/

/-- The gather's dimension numbers. -/
abbrev gd : GatherDims S4096x1024 S52224x1 S4096x52224 := gather_S4096x1024_S52224x1_S4096x52224_0_1_n_n_1_1_40961
/-- The scatter's dimension numbers. -/
abbrev sd : ScatterDims S4096x1024 S52224x1 S4096x52224 := scatter_S4096x1024_S52224x1_S4096x52224_0_1_1_1

/-- The gather at (b, k): row b of the operand, at the column the k-th start index names, read signed and clamped into
    [0, 1023]. On the row axis the start is 0 and the offset is the result's row; on the column axis the start is the
    clamped index and there is no offset (the axis is collapsed). -/
theorem gather_apply {α : Type} (x : S4096x1024.Idx → α) (idx : IVec S52224x1 32) (b : Fin 4096) (k : Fin 52224) :
    Host.gather gd x idx (ix2 b k) = x (ix2 b ⟨min (idx (ix2 k (0 : Fin 1))).toInt.toNat 1023, by omega⟩) := by
  unfold Host.gather
  refine congrArg x (funext fun a => ?_)
  match a with
  | ⟨0, _⟩ =>
    refine Fin.ext ?_
    show gd.start (ix2 b k) idx 0 + gd.batchCoord (ix2 b k) 0 + gd.offCoord (ix2 b k) 0 = b.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    refine Fin.ext ?_
    show gd.start (ix2 b k) idx 1 + gd.batchCoord (ix2 b k) 1 + gd.offCoord (ix2 b k) 1 = min (idx (ix2 k (0 : Fin 1))).toInt.toNat 1023
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix2 b k) ⟨List.idxOf (1 : Fin 2) gd.startIndexMap,
        List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl

/-- Update (b', k) lands, on the row axis, at row b': no start index there, the window coordinate is the update's row. -/
theorem scatter_coord0 (idx : IVec S52224x1 32) (b' : Fin 4096) (k : Fin 52224) :
    sd.start (ix2 b' k) idx 0 + (sd.window (ix2 b' k) 0 : ℤ) = (b'.val : ℤ) := by
  unfold ScatterDims.start ScatterDims.window
  rw [dif_neg (show (0 : Fin 2) ∉ sd.scatterDimsToOperandDims from by decide),
    dif_pos (show (0 : Fin 2) ∈ sd.sKept from by decide)]
  rw [zero_add]
  rfl

/-- Update (b', k) lands, on the column axis, at the k-th scatter index read signed: the axis is inserted, so there is no
    window coordinate. -/
theorem scatter_coord1 (idx : IVec S52224x1 32) (b' : Fin 4096) (k : Fin 52224) :
    sd.start (ix2 b' k) idx 1 + (sd.window (ix2 b' k) 1 : ℤ) = (idx (ix2 k (0 : Fin 1))).toInt := by
  unfold ScatterDims.start ScatterDims.window
  rw [dif_pos (show (1 : Fin 2) ∈ sd.scatterDimsToOperandDims from List.mem_singleton.mpr rfl),
    dif_neg (show (1 : Fin 2) ∉ sd.sKept from by decide)]
  have hsi : sd.siIdx (ix2 b' k) ⟨List.idxOf (1 : Fin 2) sd.scatterDimsToOperandDims,
      List.idxOf_lt_length_iff.2 (List.mem_singleton.mpr rfl)⟩ = ix2 k (0 : Fin 1) := by
    funext c; refine Fin.ext ?_
    match c with
    | ⟨0, _⟩ => rfl
    | ⟨1, _⟩ => rfl
  rw [hsi]
  simp

/-- When the k-th scatter index, read unsigned, is below 1024, update (b', k) lands inside the operand, on element
    (b', that index). -/
theorem resultIdx_eq (idx : IVec S52224x1 32) (b' : Fin 4096) (k : Fin 52224)
    (hk : (idx (ix2 k (0 : Fin 1))).toNat < 1024) :
    sd.resultIdx? (ix2 b' k) idx = some (ix2 b' ⟨(idx (ix2 k (0 : Fin 1))).toNat, hk⟩) := by
  have hI : (idx (ix2 k (0 : Fin 1))).toInt = ((idx (ix2 k (0 : Fin 1))).toNat : ℤ) :=
    BitVec.toInt_eq_toNat_of_lt (by omega)
  have hall : ∀ a, 0 ≤ sd.start (ix2 b' k) idx a + (sd.window (ix2 b' k) a : ℤ)
      ∧ sd.start (ix2 b' k) idx a + (sd.window (ix2 b' k) a : ℤ) < (S4096x1024.size a : ℤ) := by
    intro a
    match a with
    | ⟨0, _⟩ =>
      have e := scatter_coord0 idx b' k
      have hb := b'.isLt
      refine ⟨by rw [show (⟨0, _⟩ : Fin 2) = 0 from rfl, e]; omega, ?_⟩
      rw [show (⟨0, _⟩ : Fin 2) = 0 from rfl, e]
      show (b'.val : ℤ) < (4096 : ℕ)
      omega
    | ⟨1, _⟩ =>
      have e := scatter_coord1 idx b' k
      refine ⟨by rw [show (⟨1, _⟩ : Fin 2) = 1 from rfl, e, hI]; omega, ?_⟩
      rw [show (⟨1, _⟩ : Fin 2) = 1 from rfl, e, hI]
      show ((idx (ix2 k (0 : Fin 1))).toNat : ℤ) < (1024 : ℕ)
      omega
  unfold ScatterDims.resultIdx?
  rw [dif_pos hall]
  refine congrArg some (funext fun a => Fin.ext ?_)
  match a with
  | ⟨0, _⟩ =>
    show (sd.start (ix2 b' k) idx 0 + (sd.window (ix2 b' k) 0 : ℤ)).toNat = b'.val
    rw [scatter_coord0]; exact Int.toNat_natCast _
  | ⟨1, _⟩ =>
    show (sd.start (ix2 b' k) idx 1 + (sd.window (ix2 b' k) 1 : ℤ)).toNat = (idx (ix2 k (0 : Fin 1))).toNat
    rw [scatter_coord1, hI]; exact Int.toNat_natCast _

/-- The accumulating scatter at (b, j), all scatter indices being column numbers: the operand's element plus the sum over
    k of update (b, k) where the k-th index is j. The updates landing on (b, j) are those of row b (the other rows'
    sums vanish term by term) whose index is j. -/
theorem scatterAdd_apply (x : S4096x1024.Idx → EReal) (idx : IVec S52224x1 32)
    (hidx : ∀ k : Fin 52224, (idx (ix2 k (0 : Fin 1))).toNat < 1024)
    (upd : S4096x52224.Idx → EReal) (b : Fin 4096) (j : Fin 1024) :
    Ideal.hostScatterAdd sd x idx upd (ix2 b j)
      = x (ix2 b j) + ∑ k : Fin 52224, if (idx (ix2 k (0 : Fin 1))).toNat = j.val then upd (ix2 b k) else 0 := by
  unfold Ideal.hostScatterAdd
  refine congrArg (x (ix2 b j) + ·) ?_
  rw [Finset.sum_filter, sum_idx2, Finset.sum_eq_single b]
  · refine Finset.sum_congr rfl fun k _ => ?_
    rw [resultIdx_eq idx b k (hidx k)]
    by_cases hk : (idx (ix2 k (0 : Fin 1))).toNat = j.val
    · rw [if_pos hk, if_pos]
      exact congrArg some (congrArg (ix2 b) (Fin.ext hk))
    · rw [if_neg hk, if_neg]
      intro h
      exact hk (congrArg Fin.val (congrFun (Option.some.inj h) 1))
  · intro b' _ hb'
    refine Finset.sum_eq_zero fun k _ => ?_
    rw [resultIdx_eq idx b' k (hidx k), if_neg]
    intro h
    exact hb' (congrFun (Option.some.inj h) 0)
  · intro h; exact absurd (Finset.mem_univ b) h

/-! ## The wrap is the identity on a column number -/

/-- A word below 1024 is not negative as a signed integer, so the wrap keeps it. -/
theorem wrap_id (x : BitVec 32) (hx : x.toNat < 1024) :
    Scalar.select (IntOp.cmpi .slt x 0#32) (IntOp.addi x 1024#32) x = x := by
  have h0 : IntOp.cmpi .slt x 0#32 = 0#1 := by
    refine eq_zero_of_ne_one fun h => ?_
    rw [IntOp.cmpi_slt, BitVec.toInt_eq_toNat_of_lt (by omega), show (0#32 : BitVec 32).toInt = 0 from by decide] at h
    omega
  rw [h0, select_zero]

/-- The wrapped input indices are the input indices. -/
theorem v4_eq (iin : IVec S52224 32) (hin : Cert.Spec.InRange iin) : Read.val_main_v4 (F := Ideal) iin = iin :=
  funext fun i => wrap_id (iin i) (hin i)

/-- The wrapped output indices are the output indices. -/
theorem v15_eq (iout : IVec S52224 32) (hout : Cert.Spec.InRange iout) : Read.val_main_v15 (F := Ideal) iout = iout :=
  funext fun i => wrap_id (iout i) (hout i)

/-! ## The stages at an index -/

/-- The column of start indices at row k is the k-th input index. -/
theorem v5_apply (iin : IVec S52224 32) (hin : Cert.Spec.InRange iin) (k : Fin 52224) :
    Read.val_main_v5 (F := Ideal) iin (ix2 k (0 : Fin 1)) = iin (ix1 k) := by
  rw [Read.val_main_v5_apply, v4_eq iin hin]
  exact congrArg iin (funext fun a => match a with | ⟨0, _⟩ => rfl)

/-- The column of scatter indices at row k is the k-th output index. -/
theorem v16_apply (iout : IVec S52224 32) (hout : Cert.Spec.InRange iout) (k : Fin 52224) :
    Read.val_main_v16 (F := Ideal) iout (ix2 k (0 : Fin 1)) = iout (ix1 k) := by
  rw [Read.val_main_v16_apply, v15_eq iout hout]
  exact congrArg iout (funext fun a => match a with | ⟨0, _⟩ => rfl)

/-- The gathered array at (b, k) is `a` at row b, column (iin k): the clamp keeps a column number. -/
theorem v6_apply (a : FVec Ideal S4096x1024 .f32) (iin : IVec S52224 32) (hin : Cert.Spec.InRange iin)
    (b : Fin 4096) (k : Fin 52224) :
    Read.val_main_v6 (F := Ideal) a iin (ix2 b k)
      = a (ix2 b ⟨(iin (ix1 k)).toNat % 1024, Nat.mod_lt _ (by decide)⟩) := by
  unfold Read.val_main_v6
  refine (gather_apply a (Read.val_main_v5 (F := Ideal) iin) b k).trans (congrArg a (congrArg (ix2 b) (Fin.ext ?_)))
  show min (Read.val_main_v5 (F := Ideal) iin (ix2 k (0 : Fin 1))).toInt.toNat 1023 = (iin (ix1 k)).toNat % 1024
  rw [v5_apply iin hin k]
  have h := hin (ix1 k)
  rw [BitVec.toInt_eq_toNat_of_lt (by omega), Int.toNat_natCast]
  omega

/-- The weights broadcast over the rows: at (b, k) the weight w k. -/
theorem v8_apply (w : FVec Ideal S52224 .f32) (b : Fin 4096) (k : Fin 52224) :
    Read.val_main_v8 (F := Ideal) w (ix2 b k) = w (ix1 k) := by
  rw [Read.val_main_v8_apply, Read.val_main_v7_apply]
  exact congrArg w (funext fun a => match a with | ⟨0, _⟩ => rfl)

/-- The updates at (b, k): a b (iin k) · w k. -/
theorem v9_apply (a : FVec Ideal S4096x1024 .f32) (w : FVec Ideal S52224 .f32) (iin : IVec S52224 32)
    (hin : Cert.Spec.InRange iin) (b : Fin 4096) (k : Fin 52224) :
    Read.val_main_v9 (F := Ideal) a w iin (ix2 b k)
      = a (ix2 b ⟨(iin (ix1 k)).toNat % 1024, Nat.mod_lt _ (by decide)⟩) * w (ix1 k) := by
  rw [Read.val_main_v9_apply, v6_apply a iin hin b k, v8_apply w b k]
  rfl

/-- The array the updates are added into is zero everywhere. -/
theorem v10_apply (y : S4096x1024.Idx) : Read.val_main_v10 (F := Ideal) y = 0 := by
  rw [Read.val_main_v10_apply, Read.val_main_cst_apply]
  exact Ideal.ofBits_zero_f32

/-- The scattered array at (b, j): the sum over k of a b (iin k) · w k where iout k = j. -/
theorem v17_apply (a : FVec Ideal S4096x1024 .f32) (w : FVec Ideal S52224 .f32) (iin iout : IVec S52224 32)
    (hin : Cert.Spec.InRange iin) (hout : Cert.Spec.InRange iout) (b : Fin 4096) (j : Fin 1024) :
    Read.val_main_v17 (F := Ideal) a w iin iout (ix2 b j)
      = ∑ k : Fin 52224, if (iout (ix1 k)).toNat = j.val
          then a (ix2 b ⟨(iin (ix1 k)).toNat % 1024, Nat.mod_lt _ (by decide)⟩) * w (ix1 k) else 0 := by
  unfold Read.val_main_v17
  show Ideal.hostScatterAdd sd (Read.val_main_v10 (F := Ideal)) (Read.val_main_v16 (F := Ideal) iout)
    (Read.val_main_v9 (F := Ideal) a w iin) (ix2 b j) = _
  rw [scatterAdd_apply _ _ (fun k => by rw [v16_apply iout hout k]; exact hout (ix1 k)) _ b j, v10_apply, zero_add]
  refine Finset.sum_congr rfl fun k _ => ?_
  rw [v16_apply iout hout k, v9_apply a w iin hin b k]

/-- The bias broadcast down the rows: at (b, j) the bias of column j. -/
theorem v19_apply (bias : FVec Ideal S1024 .f32) (b : Fin 4096) (j : Fin 1024) :
    Read.val_main_v19 (F := Ideal) bias (ix2 b j) = bias (ix1 j) := by
  rw [Read.val_main_v19_apply, Read.val_main_v18_apply]
  exact congrArg bias (funext fun a => match a with | ⟨0, _⟩ => rfl)

/-! ## The reference's result is the layer -/

/-- When every index word is a column number, the reference's last stage is the layer's result, element by element. -/
theorem result_eq (a : FVec Ideal S4096x1024 .f32) (w : FVec Ideal S52224 .f32) (bias : FVec Ideal S1024 .f32)
    (iin iout : IVec S52224 32) (hin : Cert.Spec.InRange iin) (hout : Cert.Spec.InRange iout) :
    Read.val_main_v20 (F := Ideal) a w bias iin iout = Cert.Spec.out a w bias iin iout := by
  funext y
  obtain ⟨b, j, rfl⟩ : ∃ (b : Fin 4096) (j : Fin 1024), y = ix2 b j := ⟨y 0, y 1, eq_ix2 y⟩
  rw [Read.val_main_v20_apply]
  show Read.val_main_v17 (F := Ideal) a w iin iout (ix2 b j) + Read.val_main_v19 (F := Ideal) bias (ix2 b j)
    = (∑ k : Fin 52224, if (iout (ix1 k)).toNat = j.val
        then a (ix2 b ⟨(iin (ix1 k)).toNat % 1024, Nat.mod_lt _ (by decide)⟩) * w (ix1 k) else 0) + bias (ix1 j)
  rw [v17_apply a w iin iout hin hout b j, v19_apply bias b j]

/-! ## The reference's run -/

/-- Every weakly fair execution of the reference ends with the result array holding the layer's result of the argument
    arrays, and the arguments unchanged — given that the index arrays hold column numbers. -/
theorem run_out (m : (ℓ : Loc nD τ sig) → Buf (Elt Ideal) ℓ) (ρ : Dev nD → PrngReg)
    (hin : ∀ c : Dev nD, Cert.Spec.InRange (m ((c.tc : Thread nD τ).loc main_arg3)))
    (hout : ∀ c : Dev nD, Cert.Spec.InRange (m ((c.tc : Thread nD τ).loc main_arg4))) :
    θ_run (defs (F := Ideal)) (onTc (τ := τ) (main (F := Ideal))) ⟨m, fun _ => 0, ρ⟩ (fun r => ∀ c : Dev nD,
      r.2.mem ((c.tc : Thread nD τ).loc main_v20)
        = Cert.Spec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h c).1.trans ((Read.val_main_v20_eq _ _ _ _ _).trans (result_eq _ _ _ _ _ (hin c) (hout c))), (h c).2⟩)
    (Cert.ReferenceIdeal.Value.run (F := Ideal) m ρ)

/-- The reference runs and leaves its arguments unchanged: its run with the result dropped. -/
theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The sparse linear layer out = input · D + bias, where D i j is the sum of the weights of the nonzeros with row id i and
  column id j, computed by two calls — the first densifies D with one-hot products over tiles of 1024 nonzeros accumulated in
  a scratch buffer, the second multiplies and adds the bias — against its reference, which gathers the input's columns at the
  row ids, scales them by the weights and scatter-adds them at the column ids. Under the precondition (finite inputs, ids in
  [0, 1024)) both are, entry by entry over the extended reals, (∑ over the nonzeros k with column id j of
  input b (row id k) · weight k) + bias j: the kernel's side by distributing the input over D's sum and collapsing the
  one-hot in the row id, the reference's because in-range ids are neither wrapped nor clamped nor dropped.
  The three frames: the two kernel programs run over their segments (a host stretch of three reshapes, then the two regions),
  each region's body proved at every grid point; the reference is its host operations' run. Nothing is rewritten by the
  idealization, so the preservation claim is empty.
-/
import proofs.«402548_j23965917512071_3_alg».proof.Defs
import proofs.«402548_j23965917512071_3_alg».proof.Proof.Gen.Kernel
import proofs.«402548_j23965917512071_3_alg».proof.Proof.Gen.Kernel.Skeleton
import proofs.«402548_j23965917512071_3_alg».proof.Proof.Gen.Kernel.Launch
import proofs.«402548_j23965917512071_3_alg».proof.Proof.Gen.Kernel.Regions
import proofs.«402548_j23965917512071_3_alg».proof.Proof.Gen.Kernel.Points
import proofs.«402548_j23965917512071_3_alg».proof.Proof.Gen.KernelIdeal
import proofs.«402548_j23965917512071_3_alg».proof.Proof.Gen.KernelIdeal.Skeleton
import proofs.«402548_j23965917512071_3_alg».proof.Proof.Gen.KernelIdeal.Launch
import proofs.«402548_j23965917512071_3_alg».proof.Proof.Gen.KernelIdeal.Regions
import proofs.«402548_j23965917512071_3_alg».proof.Proof.Gen.KernelIdeal.Points
import proofs.«402548_j23965917512071_3_alg».proof.Proof.Gen.ReferenceIdeal
import proofs.«402548_j23965917512071_3_alg».proof.Proof.Gen.Pre_finite_inputs
import proofs.«402548_j23965917512071_3_alg».proof.Proof.FrameKernel.Run
import proofs.«402548_j23965917512071_3_alg».proof.Proof.FrameKernelIdeal.Run
import proofs.«402548_j23965917512071_3_alg».proof.Proof.Bridge
import proofs.«402548_j23965917512071_3_alg».proof.Proof.PreRead
import proofs.«402548_j23965917512071_3_alg».proof.Proof.RefSide
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := Cert.ReferenceIdeal.RefValue.frame_ri

/-- Both idealized programs end at the layer's function of the arguments: the kernel's two calls through the dense matrix,
    the reference through its gather and scatter-add; the precondition gives the finiteness the first needs and the
    ranges both need. -/
theorem algebraic : Cert.algebraic_KernelIdeal_ReferenceIdeal := by
  intro m ρ m' ρ' hpre hagree
  have hp := fun c => Cert.PreRead.read _ _ _ _ _ (hpre c)
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Bridge.kernel_out m ρ c (hp c).1 (hp c).2.1 (hp c).2.2.2.1), (h c).2⟩)
      (Cert.KernelIdeal.Hand.run_value (F := Ideal) m ρ)
  · have hin' : ∀ c : Dev Cert.ReferenceIdeal.nD, Cert.Spec.InRange (m' ((c.tc : Thread Cert.ReferenceIdeal.nD Cert.ReferenceIdeal.τ).loc Cert.ReferenceIdeal.main_arg3)) :=
      fun c => by rw [(hagree c).2.2.2.1]; exact (hp c).2.2.2.1
    have hout' : ∀ c : Dev Cert.ReferenceIdeal.nD, Cert.Spec.InRange (m' ((c.tc : Thread Cert.ReferenceIdeal.nD Cert.ReferenceIdeal.τ).loc Cert.ReferenceIdeal.main_arg4)) :=
      fun c => by rw [(hagree c).2.2.2.2]; exact (hp c).2.2.2.2
    refine (θ_run Cert.ReferenceIdeal.defs _ _).mono (fun r h c => ⟨(h c).1.trans ?_, (h c).2⟩)
      (Cert.ReferenceIdeal.RefValue.run_out m' ρ' hin' hout')
    rw [(hagree c).1, (hagree c).2.1, (hagree c).2.2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
